-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S512x1024 : Shape := ⟨2, ![512, 1024]⟩
abbrev S256x512 : Shape := ⟨2, ![256, 512]⟩
abbrev S128x256 : Shape := ⟨2, ![128, 256]⟩
abbrev S8x128 : Shape := ⟨2, ![8, 128]⟩
abbrev S512 : Shape := ⟨1, ![512]⟩
abbrev S256 : Shape := ⟨1, ![256]⟩
abbrev S128 : Shape := ⟨1, ![128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S256x512 : S_.BroadcastsInDim S256x512 (![] : Fin 0 → Fin S256x512.rank)
  reducesTo_S256x512_S_d0_1 : S256x512.ReducesTo [0, 1] S_
  bcast_S_S128x256 : S_.BroadcastsInDim S128x256 (![] : Fin 0 → Fin S128x256.rank)
  reducesTo_S128x256_S_d0_1 : S128x256.ReducesTo [0, 1] S_
  bcast_S_S8x128 : S_.BroadcastsInDim S8x128 (![] : Fin 0 → Fin S8x128.rank)
  reducesTo_S8x128_S_d0_1 : S8x128.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part5 {F : FTy → Type} [FloatOps F] (main_arg8 : FVec F S512 .f32) (main_arg12 : FVec F S256 .f32) (main_arg16 : FVec F S128 .f32) (main_v83 : IVec S_ 1) (main_v84 : FVec F S512 .f32) : IVec S_ 1 :=
  let main_v85 : IVec S512 1 := cmpf .oge main_arg8 main_v84
  let main_c_33 : IVec S_ 1 := constantI S_ 1 1#1
  let main_v86 : IVec S_ 1 := (fun x v => Host.reduce IntOp.andi x v reducesTo_S512_S_d0 h_S_) main_v85 main_c_33
  let main_v87 : IVec S_ 1 := andi main_v83 main_v86
  let main_cst_34 : FVec F S_ .f32 := constant S_ .f32 0x00000000#32
  let main_v88 : FVec F S256 .f32 := broadcastInDim S256 ![] bcast_S_S256 main_cst_34
  let main_v89 : IVec S256 1 := cmpf .oge main_arg12 main_v88
  let main_c_35 : IVec S_ 1 := constantI S_ 1 1#1
  let main_v90 : IVec S_ 1 := (fun x v => Host.reduce IntOp.andi x v reducesTo_S256_S_d0 h_S_) main_v89 main_c_35
  let main_v91 : IVec S_ 1 := andi main_v87 main_v90
  let main_cst_36 : FVec F S_ .f32 := constant S_ .f32 0x00000000#32
  let main_v92 : FVec F S128 .f32 := broadcastInDim S128 ![] bcast_S_S128 main_cst_36
  let main_v93 : IVec S128 1 := cmpf .oge main_arg16 main_v92
  let main_c_37 : IVec S_ 1 := constantI S_ 1 1#1
  let main_v94 : IVec S_ 1 := (fun x v => Host.reduce IntOp.andi x v reducesTo_S128_S_d0 h_S_) main_v93 main_c_37
  let main_v95 : IVec S_ 1 := andi main_v91 main_v94
  main_v95

def fn_part4 {F : FTy → Type} [FloatOps F] (main_arg8 : FVec F S512 .f32) (main_arg12 : FVec F S256 .f32) (main_arg14 : FVec F S128 .f32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_cst_32 : FVec F S_ .f32 := constant S_ .f32 0x00000000#32
  let main_v84 : FVec F S512 .f32 := broadcastInDim S512 ![] bcast_S_S512 main_cst_32
  fn_part5 (F := F) main_arg8 main_arg12 main_arg16 main_v83 main_v84

def fn_part3 {F : FTy → Type} [FloatOps F] (main_arg8 : FVec F S512 .f32) (main_arg11 : FVec F S256 .f32) (main_arg12 : FVec F S256 .f32) (main_arg13 : FVec F S128 .f32) (main_arg14 : FVec F S128 .f32) (main_arg15 : FVec F S128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg12 main_arg14 main_arg15 main_arg16 main_v63 main_v67

def fn_part2 {F : FTy → Type} [FloatOps F] (main_arg7 : FVec F S512 .f32) (main_arg8 : FVec F S512 .f32) (main_arg9 : FVec F S256 .f32) (main_arg10 : FVec F S256 .f32) (main_arg11 : FVec F S256 .f32) (main_arg12 : FVec F S256 .f32) (main_arg13 : FVec F S128 .f32) (main_arg14 : FVec F S128 .f32) (main_arg15 : FVec F S128 .f32) (main_arg16 : FVec F S128 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg8 main_arg11 main_arg12 main_arg13 main_arg14 main_arg15 main_arg16 main_v48 main_v49 main_v50

def fn_part1 {F : FTy → Type} [FloatOps F] (main_arg4 : FVec F S8x128 .f32) (main_arg5 : FVec F S512 .f32) (main_arg6 : FVec F S512 .f32) (main_arg7 : FVec F S512 .f32) (main_arg8 : FVec F S512 .f32) (main_arg9 : FVec F S256 .f32) (main_arg10 : FVec F S256 .f32) (main_arg11 : FVec F S256 .f32) (main_arg12 : FVec F S256 .f32) (main_arg13 : FVec F S128 .f32) (main_arg14 : FVec F S128 .f32) (main_arg15 : FVec F S128 .f32) (main_arg16 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x1024 .f32) (main_arg1 : FVec F S512x1024 .f32) (main_arg2 : FVec F S256x512 .f32) (main_arg3 : FVec F S128x256 .f32) (main_arg4 : FVec F S8x128 .f32) (main_arg5 : FVec F S512 .f32) (main_arg6 : FVec F S512 .f32) (main_arg7 : FVec F S512 .f32) (main_arg8 : FVec F S512 .f32) (main_arg9 : FVec F S256 .f32) (main_arg10 : FVec F S256 .f32) (main_arg11 : FVec F S256 .f32) (main_arg12 : FVec F S256 .f32) (main_arg13 : FVec F S128 .f32) (main_arg14 : FVec F S128 .f32) (main_arg15 : FVec F S128 .f32) (main_arg16 : FVec F S128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x1024 : Shape := ⟨2, ![65536, 1024]⟩
abbrev S512x1024 : Shape := ⟨2, ![512, 1024]⟩
abbrev S256x512 : Shape := ⟨2, ![256, 512]⟩
abbrev S128x256 : Shape := ⟨2, ![128, 256]⟩
abbrev S8x128 : Shape := ⟨2, ![8, 128]⟩
abbrev S512 : Shape := ⟨1, ![512]⟩
abbrev S256 : Shape := ⟨1, ![256]⟩
abbrev S128 : Shape := ⟨1, ![128]⟩
abbrev S_ : Shape := ⟨0, ![]⟩
abbrev S1024x512 : Shape := ⟨2, ![1024, 512]⟩
abbrev S512x256 : Shape := ⟨2, ![512, 256]⟩
abbrev S256x128 : Shape := ⟨2, ![256, 128]⟩
abbrev S128x8 : Shape := ⟨2, ![128, 8]⟩
abbrev S1x512 : Shape := ⟨2, ![1, 512]⟩
abbrev S1x256 : Shape := ⟨2, ![1, 256]⟩
abbrev S1x128 : Shape := ⟨2, ![1, 128]⟩
abbrev S65536x8 : Shape := ⟨2, ![65536, 8]⟩
abbrev S2048x1024 : Shape := ⟨2, ![2048, 1024]⟩
abbrev S2048x8 : Shape := ⟨2, ![2048, 8]⟩
abbrev S2048x512 : Shape := ⟨2, ![2048, 512]⟩
abbrev S2048x256 : Shape := ⟨2, ![2048, 256]⟩
abbrev S2048x128 : Shape := ⟨2, ![2048, 128]⟩

abbrev nBuf : Space → Nat
  | .hbm => 107
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S512x1024, .f32⟩
  | .hbm, ⟨2, _⟩ => ⟨S256x512, .f32⟩
  | .hbm, ⟨3, _⟩ => ⟨S128x256, .f32⟩
  | .hbm, ⟨4, _⟩ => ⟨S8x128, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S512x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S256x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S256x512, .f32⟩
  | .hbm, ⟨42, _⟩ => ⟨S256x512, .i1⟩
  | .hbm, ⟨43, _⟩ => ⟨S_, .f32⟩
  | .hbm, ⟨44, _⟩ => ⟨S256x512, .f32⟩
  | .hbm, ⟨45, _⟩ => ⟨S256x512, .f32⟩
  | .hbm, ⟨46, _⟩ => ⟨S256x512, .f32⟩
  | .hbm, ⟨47, _⟩ => ⟨S128x256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128x256, .f32⟩
  | .hbm, ⟨54, _⟩ => ⟨S128x256, .i1⟩
  | .hbm, ⟨55, _⟩ => ⟨S_, .f32⟩
  | .hbm, ⟨56, _⟩ => ⟨S128x256, .f32⟩
  | .hbm, ⟨57, _⟩ => ⟨S128x256, .f32⟩
  | .hbm, ⟨58, _⟩ => ⟨S128x256, .f32⟩
  | .hbm, ⟨59, _⟩ => ⟨S8x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x128, .f32⟩
  | .hbm, ⟨66, _⟩ => ⟨S8x128, .i1⟩
  | .hbm, ⟨67, _⟩ => ⟨S_, .f32⟩
  | .hbm, ⟨68, _⟩ => ⟨S8x128, .f32⟩
  | .hbm, ⟨69, _⟩ => ⟨S8x128, .f32⟩
  | .hbm, ⟨70, _⟩ => ⟨S8x128, .f32⟩
  | .hbm, ⟨71, _⟩ => ⟨S1024x512, .f32⟩
  | .hbm, ⟨72, _⟩ => ⟨S1024x512, .bf16⟩
  | .hbm, ⟨73, _⟩ => ⟨S512x256, .f32⟩
  | .hbm, ⟨74, _⟩ => ⟨S512x256, .bf16⟩
  | .hbm, ⟨75, _⟩ => ⟨S256x128, .f32⟩
  | .hbm, ⟨76, _⟩ => ⟨S256x128, .bf16⟩
  | .hbm, ⟨77, _⟩ => ⟨S128x8, .f32⟩
  | .hbm, ⟨78, _⟩ => ⟨S128x8, .bf16⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S1x512, .f32⟩
  | .hbm, ⟨87, _⟩ => ⟨S1x512, .f32⟩
  | .hbm, ⟨88, _⟩ => ⟨S_, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S1x256, .f32⟩
  | .hbm, ⟨96, _⟩ => ⟨S1x256, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S1x128, .f32⟩
  | .hbm, ⟨106, _⟩ => ⟨S65536x8, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S512x256, .bf16⟩
  | .local _ .vmem, ⟨4, _⟩ => ⟨S256x128, .bf16⟩
  | .local _ .vmem, ⟨5, _⟩ => ⟨S128x8, .bf16⟩
  | .local _ .vmem, ⟨6, _⟩ => ⟨S1x512, .f32⟩
  | .local _ .vmem, ⟨7, _⟩ => ⟨S1x512, .f32⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S1x128, .f32⟩
  | .local _ .vmem, ⟨12, _⟩ => ⟨S2048x8, .f32⟩
  | .local _ .vmem, ⟨13, _⟩ => ⟨S2048x8, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_cst_3 : Ref sig .tc := ⟨.hbm, 38, rfl⟩
abbrev main_v11 : Ref sig .tc := ⟨.hbm, 39, rfl⟩
abbrev main_cst_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call2_v0 : Ref sig .tc := ⟨.hbm, 44, rfl⟩
abbrev main_call2_v1 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_v17 : Ref sig .tc := ⟨.hbm, 49, rfl⟩
abbrev main_cst_6 : Ref sig .tc := ⟨.hbm, 50, rfl⟩
abbrev main_v18 : Ref sig .tc := ⟨.hbm, 51, rfl⟩
abbrev main_cst_7 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call3_v0 : Ref sig .tc := ⟨.hbm, 56, rfl⟩
abbrev main_call3_v1 : Ref sig .tc := ⟨.hbm, 57, rfl⟩
abbrev main_v22 : Ref sig .tc := ⟨.hbm, 58, rfl⟩
abbrev main_v23 : Ref sig .tc := ⟨.hbm, 59, rfl⟩
abbrev main_cst_8 : Ref sig .tc := ⟨.hbm, 60, rfl⟩
abbrev main_v24 : Ref sig .tc := ⟨.hbm, 61, rfl⟩
abbrev main_cst_9 : Ref sig .tc := ⟨.hbm, 62, rfl⟩
abbrev main_v25 : Ref sig .tc := ⟨.hbm, 63, rfl⟩
abbrev main_cst_10 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call4_v0 : Ref sig .tc := ⟨.hbm, 68, rfl⟩
abbrev main_call4_v1 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_11 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_12 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_13 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S512x1024_S_d0_1 : S512x1024.ReducesTo [0, 1] S_
  h_S_ : 0 < S_.numel
  bcast_S_S512x1024 : S_.BroadcastsInDim S512x1024 (![] : Fin 0 → Fin S512x1024.rank)
  reducesTo_S256x512_S_d0_1 : S256x512.ReducesTo [0, 1] S_
  bcast_S_S256x512 : S_.BroadcastsInDim S256x512 (![] : Fin 0 → Fin S256x512.rank)
  reducesTo_S128x256_S_d0_1 : S128x256.ReducesTo [0, 1] S_
  bcast_S_S128x256 : S_.BroadcastsInDim S128x256 (![] : Fin 0 → Fin S128x256.rank)
  reducesTo_S8x128_S_d0_1 : S8x128.ReducesTo [0, 1] S_
  bcast_S_S8x128 : S_.BroadcastsInDim S8x128 (![] : Fin 0 → Fin S8x128.rank)
  transposes_S512x1024_S1024x512_1_0 : S512x1024.Transposes [1, 0] S1024x512
  bitsLt_bf16_f32 : FTy.bits .bf16 < FTy.bits .f32
  transposes_S256x512_S512x256_1_0 : S256x512.Transposes [1, 0] S512x256
  transposes_S128x256_S256x128_1_0 : S128x256.Transposes [1, 0] S256x128
  transposes_S8x128_S128x8_1_0 : S8x128.Transposes [1, 0] S128x8
  bcast_S_S512 : S_.BroadcastsInDim S512 (![] : Fin 0 → Fin S512.rank)
  shapeCasts_S512_S1x512 : S512.ShapeCasts S1x512
  bcast_S_S256 : S_.BroadcastsInDim S256 (![] : Fin 0 → Fin S256.rank)
  shapeCasts_S256_S1x256 : S256.ShapeCasts S1x256
  bcast_S_S128 : S_.BroadcastsInDim S128 (![] : Fin 0 → Fin S128.rank)
  shapeCasts_S128_S1x128 : S128.ShapeCasts S1x128
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S2048x8_S2048x8_0_0 : ∀ a, (![0, 0] : Fin 2 → Nat) a + S2048x8.size a ≤ S2048x8.size a
  h_S2048x8 : 0 < S2048x8.numel
  dot_S2048x1024_S1024x512_S2048x512_1_0_0_1_n_n_wf : DotDims.WF S2048x1024 S1024x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x8_S2048x8_1_0_0_1_n_n_wf : DotDims.WF S2048x128 S128x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .bf16 = 32 ∨ (Rect.block (s := S128x8) S128x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x8.size a ≤ S65536x8.size a
  hwx0_11 : ∀ i : grid0.Coords, EltTy.bits .f32 = 32 ∨ (Rect.block (s := S65536x8) S2048x8.size (cc0_transform_11 i) (hinb0_11 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v62) S2048x8.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S512x1024 : Shape := ⟨2, ![512, 1024]⟩
abbrev S256x512 : Shape := ⟨2, ![256, 512]⟩
abbrev S128x256 : Shape := ⟨2, ![128, 256]⟩
abbrev S8x128 : Shape := ⟨2, ![8, 128]⟩
abbrev S512 : Shape := ⟨1, ![512]⟩
abbrev S256 : Shape := ⟨1, ![256]⟩
abbrev S128 : Shape := ⟨1, ![128]⟩
abbrev S_ : Shape := ⟨0, ![]⟩
abbrev S1024x512 : Shape := ⟨2, ![1024, 512]⟩
abbrev S65536x512 : Shape := ⟨2, ![65536, 512]⟩
abbrev S1x512 : Shape := ⟨2, ![1, 512]⟩
abbrev S512x256 : Shape := ⟨2, ![512, 256]⟩
abbrev S65536x256 : Shape := ⟨2, ![65536, 256]⟩
abbrev S1x256 : Shape := ⟨2, ![1, 256]⟩
abbrev S256x128 : Shape := ⟨2, ![256, 128]⟩
abbrev S65536x128 : Shape := ⟨2, ![65536, 128]⟩
abbrev S1x128 : Shape := ⟨2, ![1, 128]⟩
abbrev S128x8 : Shape := ⟨2, ![128, 8]⟩
abbrev S65536x8 : Shape := ⟨2, ![65536, 8]⟩

abbrev nBuf : Space → Nat
  | .hbm => 154
  | .vmem => 0
  | .smem => 0
  | _ => 0

abbrev hbmTy0_0 (i : Nat) : BufTy := match i % 128 with
  | 0 => ⟨S65536x1024, .f32⟩
  | 1 => ⟨S512x1024, .f32⟩
  | 2 => ⟨S256x512, .f32⟩
  | 3 => ⟨S128x256, .f32⟩
  | 4 => ⟨S8x128, .f32⟩
  | 5 => ⟨S512, .f32⟩
  | 6 => ⟨S512, .f32⟩
  | 7 => ⟨S512, .f32⟩
  | 8 => ⟨S512, .f32⟩
  | 9 => ⟨S256, .f32⟩
  | 10 => ⟨S256, .f32⟩
  | 11 => ⟨S256, .f32⟩
  | 12 => ⟨S256, .f32⟩
  | 13 => ⟨S128, .f32⟩
  | 14 => ⟨S128, .f32⟩
  | 15 => ⟨S128, .f32⟩
  | 16 => ⟨S128, .f32⟩
  | 17 => ⟨S512x1024, .f32⟩
  | 18 => ⟨S_, .f32⟩
  | 19 => ⟨S_, .f32⟩
  | 20 => ⟨S_, .f32⟩
  | 21 => ⟨S_, .f32⟩
  | 22 => ⟨S512x1024, .f32⟩
  | 23 => ⟨S512x1024, .f32⟩
  | 24 => ⟨S512x1024, .f32⟩
  | 25 => ⟨S_, .i32⟩
  | 26 => ⟨S_, .i32⟩
  | 27 => ⟨S_, .f32⟩
  | 28 => ⟨S512x1024, .f32⟩
  | 29 => ⟨S512x1024, .f32⟩
  | 30 => ⟨S_, .f32⟩
  | 31 => ⟨S512x1024, .f32⟩
  | 32 => ⟨S512x1024, .f32⟩
  | 33 => ⟨S512x1024, .f32⟩
  | 34 => ⟨S512x1024, .f32⟩
  | 35 => ⟨S1024x512, .f32⟩
  | 36 => ⟨S65536x512, .f32⟩
  | 37 => ⟨S1x512, .f32⟩
  | 38 => ⟨S65536x512, .f32⟩
  | 39 => ⟨S65536x512, .f32⟩
  | 40 => ⟨S_, .f32⟩
  | 41 => ⟨S512, .f32⟩
  | 42 => ⟨S512, .f32⟩
  | 43 => ⟨S512, .f32⟩
  | 44 => ⟨S1x512, .f32⟩
  | 45 => ⟨S65536x512, .f32⟩
  | 46 => ⟨S65536x512, .f32⟩
  | 47 => ⟨S1x512, .f32⟩
  | 48 => ⟨S65536x512, .f32⟩
  | 49 => ⟨S65536x512, .f32⟩
  | 50 => ⟨S1x512, .f32⟩
  | 51 => ⟨S65536x512, .f32⟩
  | 52 => ⟨S65536x512, .f32⟩
  | 53 => ⟨S_, .f32⟩
  | 54 => ⟨S65536x512, .f32⟩
  | 55 => ⟨S65536x512, .i1⟩
  | 56 => ⟨S_, .f32⟩
  | 57 => ⟨S_, .f32⟩
  | 58 => ⟨S65536x512, .f32⟩
  | 59 => ⟨S65536x512, .f32⟩
  | 60 => ⟨S65536x512, .f32⟩
  | 61 => ⟨S65536x512, .f32⟩
  | 62 => ⟨S256x512, .f32⟩
  | 63 => ⟨S_, .f32⟩
  | 64 => ⟨S_, .f32⟩
  | 65 => ⟨S_, .f32⟩
  | 66 => ⟨S_, .f32⟩
  | 67 => ⟨S_, .f32⟩
  | 68 => ⟨S256x512, .f32⟩
  | 69 => ⟨S256x512, .i1⟩
  | 70 => ⟨S_, .f32⟩
  | 71 => ⟨S256x512, .f32⟩
  | 72 => ⟨S256x512, .f32⟩
  | 73 => ⟨S256x512, .f32⟩
  | 74 => ⟨S512x256, .f32⟩
  | 75 => ⟨S65536x256, .f32⟩
  | 76 => ⟨S1x256, .f32⟩
  | 77 => ⟨S65536x256, .f32⟩
  | 78 => ⟨S65536x256, .f32⟩
  | 79 => ⟨S_, .f32⟩
  | 80 => ⟨S256, .f32⟩
  | 81 => ⟨S256, .f32⟩
  | 82 => ⟨S256, .f32⟩
  | 83 => ⟨S1x256, .f32⟩
  | 84 => ⟨S65536x256, .f32⟩
  | 85 => ⟨S65536x256, .f32⟩
  | 86 => ⟨S1x256, .f32⟩
  | 87 => ⟨S65536x256, .f32⟩
  | 88 => ⟨S65536x256, .f32⟩
  | 89 => ⟨S1x256, .f32⟩
  | 90 => ⟨S65536x256, .f32⟩
  | 91 => ⟨S65536x256, .f32⟩
  | 92 => ⟨S_, .f32⟩
  | 93 => ⟨S65536x256, .f32⟩
  | 94 => ⟨S65536x256, .i1⟩
  | 95 => ⟨S_, .f32⟩
  | 96 => ⟨S_, .f32⟩
  | 97 => ⟨S65536x256, .f32⟩
  | 98 => ⟨S65536x256, .f32⟩
  | 99 => ⟨S65536x256, .f32⟩
  | 100 => ⟨S65536x256, .f32⟩
  | 101 => ⟨S128x256, .f32⟩
  | 102 => ⟨S_, .f32⟩
  | 103 => ⟨S_, .f32⟩
  | 104 => ⟨S_, .f32⟩
  | 105 => ⟨S_, .f32⟩
  | 106 => ⟨S_, .f32⟩
  | 107 => ⟨S128x256, .f32⟩
  | 108 => ⟨S128x256, .i1⟩
  | 109 => ⟨S_, .f32⟩
  | 110 => ⟨S128x256, .f32⟩
  | 111 => ⟨S128x256, .f32⟩
  | 112 => ⟨S128x256, .f32⟩
  | 113 => ⟨S256x128, .f32⟩
  | 114 => ⟨S65536x128, .f32⟩
  | 115 => ⟨S1x128, .f32⟩
  | 116 => ⟨S65536x128, .f32⟩
  | 117 => ⟨S65536x128, .f32⟩
  | 118 => ⟨S_, .f32⟩
  | 119 => ⟨S128, .f32⟩
  | 120 => ⟨S128, .f32⟩
  | 121 => ⟨S128, .f32⟩
  | 122 => ⟨S1x128, .f32⟩
  | 123 => ⟨S65536x128, .f32⟩
  | 124 => ⟨S65536x128, .f32⟩
  | 125 => ⟨S1x128, .f32⟩
  | 126 => ⟨S65536x128, .f32⟩
  | 127 => ⟨S65536x128, .f32⟩
  | _ => ⟨S65536x1024, .f32⟩

abbrev hbmTy0_1 (i : Nat) : BufTy := match i % 128 with
  | 0 => ⟨S1x128, .f32⟩
  | 1 => ⟨S65536x128, .f32⟩
  | 2 => ⟨S65536x128, .f32⟩
  | 3 => ⟨S_, .f32⟩
  | 4 => ⟨S65536x128, .f32⟩
  | 5 => ⟨S65536x128, .i1⟩
  | 6 => ⟨S_, .f32⟩
  | 7 => ⟨S_, .f32⟩
  | 8 => ⟨S65536x128, .f32⟩
  | 9 => ⟨S65536x128, .f32⟩
  | 10 => ⟨S65536x128, .f32⟩
  | 11 => ⟨S65536x128, .f32⟩
  | 12 => ⟨S8x128, .f32⟩
  | 13 => ⟨S_, .f32⟩
  | 14 => ⟨S_, .f32⟩
  | 15 => ⟨S_, .f32⟩
  | 16 => ⟨S_, .f32⟩
  | 17 => ⟨S_, .f32⟩
  | 18 => ⟨S8x128, .f32⟩
  | 19 => ⟨S8x128, .i1⟩
  | 20 => ⟨S_, .f32⟩
  | 21 => ⟨S8x128, .f32⟩
  | 22 => ⟨S8x128, .f32⟩
  | 23 => ⟨S8x128, .f32⟩
  | 24 => ⟨S128x8, .f32⟩
  | 25 => ⟨S65536x8, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_cst_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call3_v0 : Ref sig .tc := ⟨.hbm, 71, rfl⟩
abbrev main_call3_v1 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_10 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_cst_12 : Ref sig .tc := ⟨.hbm, 96, rfl⟩
abbrev main_call4_v0 : Ref sig .tc := ⟨.hbm, 97, rfl⟩
abbrev main_call4_v1 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_13 : Ref sig .tc := ⟨.hbm, 102, rfl⟩
abbrev main_v59 : Ref sig .tc := ⟨.hbm, 103, rfl⟩
abbrev main_cst_14 : Ref sig .tc := ⟨.hbm, 104, rfl⟩
abbrev main_v60 : Ref sig .tc := ⟨.hbm, 105, rfl⟩
abbrev main_cst_15 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call5_v0 : Ref sig .tc := ⟨.hbm, 110, rfl⟩
abbrev main_call5_v1 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_17 : Ref sig .tc := ⟨.hbm, 131, rfl⟩
abbrev main_v82 : Ref sig .tc := ⟨.hbm, 132, rfl⟩
abbrev main_v83 : Ref sig .tc := ⟨.hbm, 133, rfl⟩
abbrev main_cst_18 : Ref sig .tc := ⟨.hbm, 134, rfl⟩
abbrev main_cst_19 : Ref sig .tc := ⟨.hbm, 135, rfl⟩
abbrev main_call6_v0 : Ref sig .tc := ⟨.hbm, 136, rfl⟩
abbrev main_call6_v1 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_20 : Ref sig .tc := ⟨.hbm, 141, rfl⟩
abbrev main_v87 : Ref sig .tc := ⟨.hbm, 142, rfl⟩
abbrev main_cst_21 : Ref sig .tc := ⟨.hbm, 143, rfl⟩
abbrev main_v88 : Ref sig .tc := ⟨.hbm, 144, rfl⟩
abbrev main_cst_22 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call7_v0 : Ref sig .tc := ⟨.hbm, 149, rfl⟩
abbrev main_call7_v1 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩

abbrev nD : Nat := 1
abbrev τ : Topo := Topo.v7x

variable {F : FTy → Type} [FloatOps F]

class Facts₀ : Prop where
  reducesTo_S512x1024_S_d0_1 : S512x1024.ReducesTo [0, 1] S_
  h_S_ : 0 < S_.numel
  bcast_S_S512x1024 : S_.BroadcastsInDim S512x1024 (![] : Fin 0 → Fin S512x1024.rank)
  transposes_S512x1024_S1024x512_1_0 : S512x1024.Transposes [1, 0] S1024x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  bcast_S_S65536x512 : S_.BroadcastsInDim S65536x512 (![] : Fin 0 → Fin S65536x512.rank)
  reducesTo_S256x512_S_d0_1 : S256x512.ReducesTo [0, 1] S_
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S256 : S_.BroadcastsInDim S256 (![] : Fin 0 → Fin S256.rank)
  bcast_S_S65536x256 : S_.BroadcastsInDim S65536x256 (![] : Fin 0 → Fin S65536x256.rank)
  reducesTo_S128x256_S_d0_1 : S128x256.ReducesTo [0, 1] S_
  bcast_S_S128x256 : S_.BroadcastsInDim S128x256 (![] : Fin 0 → Fin S128x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S128 : S_.BroadcastsInDim S128 (![] : Fin 0 → Fin S128.rank)
  bcast_S_S65536x128 : S_.BroadcastsInDim S65536x128 (![] : Fin 0 → Fin S65536x128.rank)
  reducesTo_S8x128_S_d0_1 : S8x128.ReducesTo [0, 1] S_
  bcast_S_S8x128 : S_.BroadcastsInDim S8x128 (![] : Fin 0 → Fin S8x128.rank)
  transposes_S8x128_S128x8_1_0 : S8x128.Transposes [1, 0] S128x8
  dot_S65536x1024_S1024x512_S65536x512_1_0_0_1_n_n_wf : DotDims.WF S65536x1024 S1024x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x8_S65536x8_1_0_0_1_n_n_wf : DotDims.WF S65536x128 S128x8 S65536x8 [1] [0] [0] [1] [] []

variable [Facts₀]

def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x8_S65536x8_1_0_0_1_n_n : DotDims S65536x128 S128x8 S65536x8 where
  lhsContracting := [1]
  rhsContracting := [0]
  lhsNonContracting := [0]
  rhsNonContracting := [1]
  lhsBatch := []
  rhsBatch := []
  wf := dot_S65536x128_S128x8_S65536x8_1_0_0_1_n_n_wf

class Facts : Prop extends Facts₀ where

variable [Facts]
-- ==== Proof.BinaryMlp.lean ====
/-
  A binarised multilayer perceptron on one row, and the fold of a batch normalisation into a scale and a shift.

  A layer takes a row `h`, forms `z j = ∑ k, h k * w k j`, applies an affine batch normalisation and keeps the
  sign (`+1` where the value is `≥ 0`, `-1` otherwise). The normalisation is written in two ways:
    folded    `z * (g * r) + (b - m * (g * r))`
    unfolded  `((z - m) * r) * g + b`
  with `r` the reciprocal square root of the variance plus epsilon. Over the extended reals the two agree for EVERY
  `z` (finite or not) as soon as `g`, `b`, `m` and `r` are real numbers: multiplication is associative and
  commutative there, an infinite `z` times the real `g * r` is decided by the sign of `g * r` on both sides, and
  adding a real to an infinity leaves it. Nothing is asked of the weights or of the row.
-/
import Idealize.ShloMosaic.PureOps.Ideal
import Idealize.ShloMosaic.PureOps.Ideal.Laws
import Idealize.ShloMosaic.Lib.ValueIdx

noncomputable section

namespace Cert.BinaryMlp

open Idealize.ShloMosaic

/-- A `[1, n]` row as a function of the column. -/
abbrev rowOf {n : ℕ} (s : (⟨2, ![1, n]⟩ : Shape).Idx → EReal) : Fin n → EReal := fun j => s (ValueIdx.ix2 (0 : Fin 1) j)

/-- A matrix `[a, b]` as a function of its two coordinates. -/
abbrev matOf {a b : ℕ} (w : (⟨2, ![a, b]⟩ : Shape).Idx → EReal) : Fin a → Fin b → EReal := fun k j => w (ValueIdx.ix2 k j)

/-- A vector `[n]` as a function of its coordinate. -/
abbrev vecOf {n : ℕ} (v : (⟨1, ![n]⟩ : Shape).Idx → EReal) : Fin n → EReal := fun j => v (ValueIdx.ix1 j)

/-- One dense layer on a row: `z j = ∑ k, h k * w k j`. -/
def dense {K J : ℕ} (h : Fin K → EReal) (w : Fin K → Fin J → EReal) : Fin J → EReal :=
  fun j => ∑ k : Fin K, h k * w k j

/-- The binary activation: the word for `1.0` where `0 ≤ y`, the word for `-1.0` elsewhere. The three words are kept
    as the programs print them; both programs compare and select with the same operations. -/
def act (y : EReal) : EReal :=
  Scalar.select (FloatOps.cmpf (F := Ideal) (φ := .f32) .oge y (Ideal.ofBits .f32 0x00000000#32))
    (Ideal.ofBits .f32 0x3F800000#32) (Ideal.ofBits .f32 0xBF800000#32)

/-- The reciprocal standard deviation of a normalisation: the reciprocal square root of the variance plus the
    epsilon both programs print (the f32 word `0x3727C5AC`). -/
def rstd (v : EReal) : EReal :=
  FloatOps.hostUnary (F := Ideal) (φ := .f32) .rsqrt (FloatOps.addf v (FloatOps.ofBits .f32 0x3727C5AC#32))

/-- The folded normalisation followed by the activation, on coordinate `j`. -/
def actFolded {J : ℕ} (s sh : Fin J → EReal) (j : Fin J) (z : EReal) : EReal := act (z * s j + sh j)

/-- The unfolded normalisation followed by the activation, on coordinate `j`. -/
def actPlain {J : ℕ} (m r g b : Fin J → EReal) (j : Fin J) (z : EReal) : EReal := act ((z - m j) * r j * g j + b j)

/-- Three activated dense layers and a last dense layer, on one row. -/
def mlp {n0 n1 n2 n3 n4 : ℕ} (a1 : Fin n1 → EReal → EReal) (a2 : Fin n2 → EReal → EReal) (a3 : Fin n3 → EReal → EReal)
    (w1 : Fin n0 → Fin n1 → EReal) (w2 : Fin n1 → Fin n2 → EReal) (w3 : Fin n2 → Fin n3 → EReal)
    (w4 : Fin n3 → Fin n4 → EReal) (x : Fin n0 → EReal) : Fin n4 → EReal :=
  dense (fun k3 => a3 k3 (dense (fun k2 => a2 k2 (dense (fun k1 => a1 k1 (dense x w1 k1)) w2 k2)) w3 k3)) w4

/-- The fold of the normalisation, for every extended real `z` and real parameters. -/
theorem bn_fold (z : EReal) (g b m r : ℝ) :
    z * ((g : EReal) * (r : EReal)) + ((b : EReal) - (m : EReal) * ((g : EReal) * (r : EReal)))
      = (z - (m : EReal)) * (r : EReal) * (g : EReal) + (b : EReal) := by
  have e1 : ((g : EReal) * (r : EReal)) = ((g * r : ℝ) : EReal) := (EReal.coe_mul g r).symm
  have e2 : ((b : EReal) - (m : EReal) * ((g * r : ℝ) : EReal)) = ((b - m * (g * r) : ℝ) : EReal) := by
    rw [EReal.coe_sub, EReal.coe_mul m (g * r)]
  have e3 : (r : EReal) * (g : EReal) = ((g * r : ℝ) : EReal) := by rw [mul_comm g r, EReal.coe_mul]
  rw [e1, e2, mul_assoc, e3]
  induction z using EReal.rec with
  | bot =>
    rw [EReal.bot_sub]
    rcases lt_trichotomy (g * r) 0 with h | h | h
    · rw [EReal.bot_mul_coe_of_neg h, EReal.top_add_coe, EReal.top_add_coe]
    · rw [h, EReal.coe_zero, mul_zero, zero_add, zero_add, mul_zero, sub_zero]
    · rw [EReal.bot_mul_coe_of_pos h, EReal.bot_add, EReal.bot_add]
  | coe x =>
    rw [← EReal.coe_sub, ← EReal.coe_mul, ← EReal.coe_mul, ← EReal.coe_add, ← EReal.coe_add]
    congr 1
    ring
  | top =>
    rw [EReal.top_sub_coe]
    rcases lt_trichotomy (g * r) 0 with h | h | h
    · rw [EReal.top_mul_coe_of_neg h, EReal.bot_add, EReal.bot_add]
    · rw [h, EReal.coe_zero, mul_zero, zero_add, zero_add, mul_zero, sub_zero]
    · rw [EReal.top_mul_coe_of_pos h, EReal.top_add_coe, EReal.top_add_coe]

/-- With real parameters the folded and the unfolded activations are one function of `z`. -/
theorem actFolded_eq_actPlain {J : ℕ} (m r g b : Fin J → EReal) (gR bR mR rR : Fin J → ℝ)
    (hg : ∀ j, g j = (gR j : EReal)) (hb : ∀ j, b j = (bR j : EReal)) (hm : ∀ j, m j = (mR j : EReal))
    (hr : ∀ j, r j = (rR j : EReal)) :
    actFolded (fun j => g j * r j) (fun j => b j - m j * (g j * r j)) = actPlain m r g b := by
  funext j z
  show act (z * (g j * r j) + (b j - m j * (g j * r j))) = act ((z - m j) * r j * g j + b j)
  rw [hg j, hb j, hm j, hr j, bn_fold]

end Cert.BinaryMlp

end
-- ==== Proof.KernelRow.lean ====
/-
  The kernel body on one block of 2048 rows, read at an entry.

  The body takes the block `x` of 2048 input rows, the four weight matrices already transposed (`w1 : [1024, 512]`,
  `w2 : [512, 256]`, `w3 : [256, 128]`, `w4 : [128, 8]`) and, per hidden layer, a scale row and a shift row of shape
  `[1, n]`. Each hidden layer is a matrix product into a zero accumulator, times the scale row, plus the shift row, then
  the sign (`+1` where `≥ 0`, else `-1`); the last layer is a matrix product alone. A change of float format is the
  identity on the extended reals, a cast between equal shapes is the identity, and a `[1, n]` row broadcast over the
  rows reads its one row. So entry `(p, o)` of the stored block depends on row `p` of `x` only, and is the row function
  `BinaryMlp.mlp` with the folded activations, at `o`.
-/
import proofs.«139874_j27230092656811_1_alg».proof.Proof.Gen.KernelIdeal.Skeleton
import proofs.«139874_j27230092656811_1_alg».proof.Proof.BinaryMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.BinaryMlp

/-! ### The product of layer 1: `[2048, 1024] × [1024, 512]` -/

theorem lhs_l1_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_l1_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhs_l1_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhs_l1_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- Entry `(p, j)` of the product into a zero accumulator is `∑ k, l (p, k) * r (k, j)`. -/
theorem mm_l1 {φ₁ φ₂ : FTy} (l : FVec Ideal S2048x1024 φ₁) (r : FVec Ideal S1024x512 φ₂) (p : Fin 2048) (j : Fin 512) :
    matmul dot_S2048x1024_S1024x512_S2048x512_1_0_0_1_n_n none l r (constant (F := Ideal) S2048x512 .f32 0x00000000#32) (ix2 p j)
      = ∑ k : Fin 1024, l (ix2 p k) * r (ix2 k j) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p j) ((ValueIdx.contrEquiv1 dot_S2048x1024_S1024x512_S2048x512_1_0_0_1_n_n 1024 rfl rfl).symm k) = ix2 p k := funext fun a => Fin.ext (by
    match a with
    | ⟨0, _⟩ => exact lhs_l1_0 _ _
    | ⟨1, _⟩ => exact (lhs_l1_1 _ _).trans hk)
  have er : dot_S2048x1024_S1024x512_S2048x512_1_0_0_1_n_n.rhsIdx (ix2 p j) ((ValueIdx.contrEquiv1 dot_S2048x1024_S1024x512_S2048x512_1_0_0_1_n_n 1024 rfl rfl).symm k) = ix2 k j := funext fun a => Fin.ext (by
    match a with
    | ⟨0, _⟩ => exact (rhs_l1_0 _ _).trans hk
    | ⟨1, _⟩ => exact rhs_l1_1 _ _)
  rw [el, er]

/-! ### The product of layer 2: `[2048, 512] × [512, 256]` -/

theorem lhs_l2_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_l2_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_l2_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_l2_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Entry `(p, j)` of the product into a zero accumulator is `∑ k, l (p, k) * r (k, j)`. -/
theorem mm_l2 {φ₁ φ₂ : FTy} (l : FVec Ideal S2048x512 φ₁) (r : FVec Ideal S512x256 φ₂) (p : Fin 2048) (j : Fin 256) :
    matmul dot_S2048x512_S512x256_S2048x256_1_0_0_1_n_n none l r (constant (F := Ideal) S2048x256 .f32 0x00000000#32) (ix2 p j)
      = ∑ k : Fin 512, l (ix2 p k) * r (ix2 k j) := by
  simp only [matmul]
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 p j) ((ValueIdx.contrEquiv1 dot_S2048x512_S512x256_S2048x256_1_0_0_1_n_n 512 rfl rfl).symm k) = ix2 p k := funext fun a => Fin.ext (by
    match a with
    | ⟨0, _⟩ => exact lhs_l2_0 _ _
    | ⟨1, _⟩ => exact (lhs_l2_1 _ _).trans hk)
  have er : dot_S2048x512_S512x256_S2048x256_1_0_0_1_n_n.rhsIdx (ix2 p j) ((ValueIdx.contrEquiv1 dot_S2048x512_S512x256_S2048x256_1_0_0_1_n_n 512 rfl rfl).symm k) = ix2 k j := funext fun a => Fin.ext (by
    match a with
    | ⟨0, _⟩ => exact (rhs_l2_0 _ _).trans hk
    | ⟨1, _⟩ => exact rhs_l2_1 _ _)
  rw [el, er]

/-! ### The product of layer 3: `[2048, 256] × [256, 128]` -/

theorem lhs_l3_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_l3_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_l3_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_l3_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Entry `(p, j)` of the product into a zero accumulator is `∑ k, l (p, k) * r (k, j)`. -/
theorem mm_l3 {φ₁ φ₂ : FTy} (l : FVec Ideal S2048x256 φ₁) (r : FVec Ideal S256x128 φ₂) (p : Fin 2048) (j : Fin 128) :
    matmul dot_S2048x256_S256x128_S2048x128_1_0_0_1_n_n none l r (constant (F := Ideal) S2048x128 .f32 0x00000000#32) (ix2 p j)
      = ∑ k : Fin 256, l (ix2 p k) * r (ix2 k j) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p j) ((ValueIdx.contrEquiv1 dot_S2048x256_S256x128_S2048x128_1_0_0_1_n_n 256 rfl rfl).symm k) = ix2 p k := funext fun a => Fin.ext (by
    match a with
    | ⟨0, _⟩ => exact lhs_l3_0 _ _
    | ⟨1, _⟩ => exact (lhs_l3_1 _ _).trans hk)
  have er : dot_S2048x256_S256x128_S2048x128_1_0_0_1_n_n.rhsIdx (ix2 p j) ((ValueIdx.contrEquiv1 dot_S2048x256_S256x128_S2048x128_1_0_0_1_n_n 256 rfl rfl).symm k) = ix2 k j := funext fun a => Fin.ext (by
    match a with
    | ⟨0, _⟩ => exact (rhs_l3_0 _ _).trans hk
    | ⟨1, _⟩ => exact rhs_l3_1 _ _)
  rw [el, er]

/-! ### The product of layer 4: `[2048, 128] × [128, 8]` -/

theorem lhs_l4_0 (i : S2048x8.Idx) (q : dot_S2048x128_S128x8_S2048x8_1_0_0_1_n_n.contr.Idx) :
    (dot_S2048x128_S128x8_S2048x8_1_0_0_1_n_n.lhsIdx i q 0).val = (i 0).val := by
  unfold DotDims.lhsIdx
  rw [dif_neg (show ¬(0 : Fin S2048x128.rank) ∈ dot_S2048x128_S128x8_S2048x8_1_0_0_1_n_n.lhsBatch by decide), dif_pos (show (0 : Fin S2048x128.rank) ∈ dot_S2048x128_S128x8_S2048x8_1_0_0_1_n_n.lhsNonContracting by decide)]
  rfl
theorem lhs_l4_1 (i : S2048x8.Idx) (q : dot_S2048x128_S128x8_S2048x8_1_0_0_1_n_n.contr.Idx) :
    (dot_S2048x128_S128x8_S2048x8_1_0_0_1_n_n.lhsIdx i q 1).val = (q ⟨0, by decide⟩).val :=
  dot_S2048x128_S128x8_S2048x8_1_0_0_1_n_n.lhsIdx_val_of_single rfl i q
theorem rhs_l4_0 (i : S2048x8.Idx) (q : dot_S2048x128_S128x8_S2048x8_1_0_0_1_n_n.contr.Idx) :
    (dot_S2048x128_S128x8_S2048x8_1_0_0_1_n_n.rhsIdx i q 0).val = (q ⟨0, by decide⟩).val :=
  dot_S2048x128_S128x8_S2048x8_1_0_0_1_n_n.rhsIdx_val_of_single rfl i q
theorem rhs_l4_1 (i : S2048x8.Idx) (q : dot_S2048x128_S128x8_S2048x8_1_0_0_1_n_n.contr.Idx) :
    (dot_S2048x128_S128x8_S2048x8_1_0_0_1_n_n.rhsIdx i q 1).val = (i 1).val := by
  unfold DotDims.rhsIdx
  rw [dif_neg (show ¬(1 : Fin S128x8.rank) ∈ dot_S2048x128_S128x8_S2048x8_1_0_0_1_n_n.rhsBatch by decide), dif_pos (show (1 : Fin S128x8.rank) ∈ dot_S2048x128_S128x8_S2048x8_1_0_0_1_n_n.rhsNonContracting by decide)]
  rfl

/-- Entry `(p, j)` of the product into a zero accumulator is `∑ k, l (p, k) * r (k, j)`. -/
theorem mm_l4 {φ₁ φ₂ : FTy} (l : FVec Ideal S2048x128 φ₁) (r : FVec Ideal S128x8 φ₂) (p : Fin 2048) (j : Fin 8) :
    matmul dot_S2048x128_S128x8_S2048x8_1_0_0_1_n_n none l r (constant (F := Ideal) S2048x8 .f32 0x00000000#32) (ix2 p j)
      = ∑ k : Fin 128, l (ix2 p k) * r (ix2 k j) := by
  simp only [matmul]
  rw [Ideal.matmul_constant_zero_apply, ← Equiv.sum_comp (ValueIdx.contrEquiv1 dot_S2048x128_S128x8_S2048x8_1_0_0_1_n_n 128 rfl rfl).symm]
  refine Finset.sum_congr rfl fun k _ => ?_
  have hk := ValueIdx.contrEquiv1_symm_val dot_S2048x128_S128x8_S2048x8_1_0_0_1_n_n 128 rfl rfl k
  have el : dot_S2048x128_S128x8_S2048x8_1_0_0_1_n_n.lhsIdx (ix2 p j) ((ValueIdx.contrEquiv1 dot_S2048x128_S128x8_S2048x8_1_0_0_1_n_n 128 rfl rfl).symm k) = ix2 p k := funext fun a => Fin.ext (by
    match a with
    | ⟨0, _⟩ => exact lhs_l4_0 _ _
    | ⟨1, _⟩ => exact (lhs_l4_1 _ _).trans hk)
  have er : dot_S2048x128_S128x8_S2048x8_1_0_0_1_n_n.rhsIdx (ix2 p j) ((ValueIdx.contrEquiv1 dot_S2048x128_S128x8_S2048x8_1_0_0_1_n_n 128 rfl rfl).symm k) = ix2 k j := funext fun a => Fin.ext (by
    match a with
    | ⟨0, _⟩ => exact (rhs_l4_0 _ _).trans hk
    | ⟨1, _⟩ => exact rhs_l4_1 _ _)
  rw [el, er]

/-! ### The two payloads -/

/-- The first payload (layers 1 and 2) at entry `(p, j)`. -/
theorem pay2_apply (x : Vec Ideal S2048x1024 .f32) (w1 : Vec Ideal S1024x512 .bf16) (s1 sh1 : Vec Ideal S1x512 .f32)
    (w2 : Vec Ideal S512x256 .bf16) (s2 sh2 : Vec Ideal S1x256 .f32) (p : Fin 2048) (j : Fin 256) :
    k0_pay2 (F := Ideal) x w1 s1 sh1 w2 s2 sh2 (ix2 p j)
      = actFolded (rowOf s2) (rowOf sh2) j
          (dense (fun k1 => actFolded (rowOf s1) (rowOf sh1) k1 (dense (fun k0 => x (ix2 p k0)) (matOf w1) k1)) (matOf w2) j) := by
  unfold k0_pay2
  simp only [truncf_apply, select_apply, cmpf_apply, addf_apply, mulf_apply, broadcast_apply, mm_l1, mm_l2,
    broadcastTo_1b_ab_apply, shapeCast_self]
  rfl

/-- The second payload (layer 3 and the last product) at entry `(p, o)`. -/
theorem pay1_apply (h : FVec Ideal S2048x256 .bf16) (w3 : Vec Ideal S256x128 .bf16) (s3 sh3 : Vec Ideal S1x128 .f32)
    (w4 : Vec Ideal S128x8 .bf16) (p : Fin 2048) (o : Fin 8) :
    k0_pay1 (F := Ideal) h w3 s3 sh3 w4 (ix2 p o)
      = dense (fun k3 => actFolded (rowOf s3) (rowOf sh3) k3 (dense (fun k2 => h (ix2 p k2)) (matOf w3) k3)) (matOf w4) o := by
  unfold k0_pay1
  simp only [truncf_apply, select_apply, cmpf_apply, addf_apply, mulf_apply, broadcast_apply, mm_l3, mm_l4,
    broadcastTo_1b_ab_apply, shapeCast_self]
  rfl

/-- The stored block at entry `(p, o)`: the row function of row `p` of `x`. -/
theorem block_apply (x : Vec Ideal S2048x1024 .f32) (w1 : Vec Ideal S1024x512 .bf16) (s1 sh1 : Vec Ideal S1x512 .f32)
    (w2 : Vec Ideal S512x256 .bf16) (s2 sh2 : Vec Ideal S1x256 .f32) (w3 : Vec Ideal S256x128 .bf16)
    (s3 sh3 : Vec Ideal S1x128 .f32) (w4 : Vec Ideal S128x8 .bf16) (p : Fin 2048) (o : Fin 8) :
    k0_pay1 (F := Ideal) (k0_pay2 (F := Ideal) x w1 s1 sh1 w2 s2 sh2) w3 s3 sh3 w4 (ix2 p o)
      = mlp (actFolded (rowOf s1) (rowOf sh1)) (actFolded (rowOf s2) (rowOf sh2)) (actFolded (rowOf s3) (rowOf sh3))
          (matOf w1) (matOf w2) (matOf w3) (matOf w4) (fun k0 => x (ix2 p k0)) o := by
  rw [pay1_apply]
  simp only [pay2_apply]
  rfl

/-- The same with every operand NAMED: whatever the proof knows the row of `x`, the four matrices and the six
    parameter rows to be, the stored block's entry is the row function of those. -/
theorem block_apply_of_eq (x : Vec Ideal S2048x1024 .f32) (w1 : Vec Ideal S1024x512 .bf16) (s1 sh1 : Vec Ideal S1x512 .f32)
    (w2 : Vec Ideal S512x256 .bf16) (s2 sh2 : Vec Ideal S1x256 .f32) (w3 : Vec Ideal S256x128 .bf16)
    (s3 sh3 : Vec Ideal S1x128 .f32) (w4 : Vec Ideal S128x8 .bf16) (p : Fin 2048) (o : Fin 8)
    (X : Fin 1024 → EReal) (W1 : Fin 1024 → Fin 512 → EReal) (S1 H1 : Fin 512 → EReal)
    (W2 : Fin 512 → Fin 256 → EReal) (S2 H2 : Fin 256 → EReal) (W3 : Fin 256 → Fin 128 → EReal)
    (S3 H3 : Fin 128 → EReal) (W4 : Fin 128 → Fin 8 → EReal)
    (hx : ∀ k, x (ix2 p k) = X k) (hw1 : ∀ k j, w1 (ix2 k j) = W1 k j)
    (hs1 : ∀ j, s1 (ix2 (0 : Fin 1) j) = S1 j) (hh1 : ∀ j, sh1 (ix2 (0 : Fin 1) j) = H1 j)
    (hw2 : ∀ k j, w2 (ix2 k j) = W2 k j)
    (hs2 : ∀ j, s2 (ix2 (0 : Fin 1) j) = S2 j) (hh2 : ∀ j, sh2 (ix2 (0 : Fin 1) j) = H2 j)
    (hw3 : ∀ k j, w3 (ix2 k j) = W3 k j)
    (hs3 : ∀ j, s3 (ix2 (0 : Fin 1) j) = S3 j) (hh3 : ∀ j, sh3 (ix2 (0 : Fin 1) j) = H3 j)
    (hw4 : ∀ k j, w4 (ix2 k j) = W4 k j) :
    k0_pay1 (F := Ideal) (k0_pay2 (F := Ideal) x w1 s1 sh1 w2 s2 sh2) w3 s3 sh3 w4 (ix2 p o)
      = mlp (actFolded S1 H1) (actFolded S2 H2) (actFolded S3 H3) W1 W2 W3 W4 X o := by
  rw [block_apply]
  have ex : (fun k0 => x (ix2 p k0)) = X := funext hx
  have e1 : matOf w1 = W1 := funext fun k => funext fun j => hw1 k j
  have e2 : matOf w2 = W2 := funext fun k => funext fun j => hw2 k j
  have e3 : matOf w3 = W3 := funext fun k => funext fun j => hw3 k j
  have e4 : matOf w4 = W4 := funext fun k => funext fun j => hw4 k j
  have a1 : rowOf s1 = S1 := funext hs1
  have b1 : rowOf sh1 = H1 := funext hh1
  have a2 : rowOf s2 = S2 := funext hs2
  have b2 : rowOf sh2 = H2 := funext hh2
  have a3 : rowOf s3 = S3 := funext hs3
  have b3 : rowOf sh3 = H3 := funext hh3
  rw [ex, e1, e2, e3, e4, a1, b1, a2, b2, a3, b3]

end Cert.KernelIdeal.Row

end
-- ==== Proof.KernelValue.lean ====
/-
  The kernel's result array as one function of the arrays the region finds.

  The grid has 32 points. Point `t` reads rows `2048 t … 2048 t + 2047` of the input (window 0), the four weight
  matrices and the six parameter rows whole (windows 1 to 10: their index maps are constant 0), and writes rows
  `2048 t … 2048 t + 2047` of the `[65536, 8]` result (window 11). The stored block's entry `(p, o)` is the row
  function of input row `2048 t + p` (the row module); the 32 blocks tile the result; so the result array is, entry
  by entry, the row function of the matching input row.
-/
import proofs.«139874_j27230092656811_1_alg».proof.Proof.Gen.KernelIdeal.Value
import proofs.«139874_j27230092656811_1_alg».proof.Proof.KernelRow

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.BinaryMlp Cert.KernelIdeal.Row
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, by their literal types -/

abbrev xArr (c : Dev nD) : Vec Ideal S65536x1024 .f32 := V m c main_arg0
abbrev w1Arr (c : Dev nD) : Vec Ideal S1024x512 .bf16 := V m c main_v31
abbrev w2Arr (c : Dev nD) : Vec Ideal S512x256 .bf16 := V m c main_v33
abbrev w3Arr (c : Dev nD) : Vec Ideal S256x128 .bf16 := V m c main_v35
abbrev w4Arr (c : Dev nD) : Vec Ideal S128x8 .bf16 := V m c main_v37
abbrev s1Arr (c : Dev nD) : Vec Ideal S1x512 .f32 := V m c main_v44
abbrev sh1Arr (c : Dev nD) : Vec Ideal S1x512 .f32 := V m c main_v45
abbrev s2Arr (c : Dev nD) : Vec Ideal S1x256 .f32 := V m c main_v52
abbrev sh2Arr (c : Dev nD) : Vec Ideal S1x256 .f32 := V m c main_v53
abbrev s3Arr (c : Dev nD) : Vec Ideal S1x128 .f32 := V m c main_v60
abbrev sh3Arr (c : Dev nD) : Vec Ideal S1x128 .f32 := V m c main_v61

/-- The result array: entry `(r, o)` is the row function of input row `r`, at `o`. -/
def G (c : Dev nD) : Vec Ideal S65536x8 .f32 := fun i =>
  mlp (actFolded (rowOf (s1Arr m c)) (rowOf (sh1Arr m c))) (actFolded (rowOf (s2Arr m c)) (rowOf (sh2Arr m c)))
    (actFolded (rowOf (s3Arr m c)) (rowOf (sh3Arr m c)))
    (matOf (w1Arr m c)) (matOf (w2Arr m c)) (matOf (w3Arr m c)) (matOf (w4Arr m c))
    (fun k => xArr m c (ix2 (i 0) k)) (i 1)

/-! ## The index maps, decided over the 32 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-! ## Each window's block at a point, read at an entry -/

/-- Row `p` of point `t`'s block is row `2048 t + p` of the array. -/
def row (t : Fin cfg0.N) (p : Fin 2048) : Fin 65536 :=
  ⟨t.val * 2048 + p.val, by have h := t.isLt; have hN : cfg0.N = 32 := N_0; have hp := p.isLt; omega⟩

theorem blk0 (c : Dev nD) (t : Fin cfg0.N) (p : Fin 2048) (k : Fin 1024) :
    (iblk m c 0 t : Vec Ideal S2048x1024 .f32) (ix2 p k) = xArr m c (ix2 (row t p) k) := by
  obtain ⟨e0, e1⟩ := idx0 t
  unfold iblk
  rw [View.read_apply]
  show V m c main_arg0 _ = V m c main_arg0 _
  congr 1
  funext a
  apply Fin.ext
  match a with
  | ⟨0, _⟩ => show win0_0.index t (0 : Fin 2) * 2048 + 1 * p.val = t.val * 2048 + p.val; rw [e0]; omega
  | ⟨1, _⟩ => show win0_0.index t (1 : Fin 2) * 1024 + 1 * k.val = k.val; rw [e1]; omega

theorem blk1 (c : Dev nD) (t : Fin cfg0.N) (k : Fin 1024) (j : Fin 512) :
    (iblk m c 1 t : Vec Ideal S1024x512 .bf16) (ix2 k j) = w1Arr m c (ix2 k j) := by
  obtain ⟨e0, e1⟩ := idx1 t
  unfold iblk
  rw [View.read_apply]
  show V m c main_v31 _ = V m c main_v31 _
  congr 1
  funext a
  apply Fin.ext
  match a with
  | ⟨0, _⟩ => show win0_1.index t (0 : Fin 2) * 1024 + 1 * k.val = k.val; rw [e0]; omega
  | ⟨1, _⟩ => show win0_1.index t (1 : Fin 2) * 512 + 1 * j.val = j.val; rw [e1]; omega

theorem blk2 (c : Dev nD) (t : Fin cfg0.N) (k : Fin 512) (j : Fin 256) :
    (iblk m c 2 t : Vec Ideal S512x256 .bf16) (ix2 k j) = w2Arr m c (ix2 k j) := by
  obtain ⟨e0, e1⟩ := idx2 t
  unfold iblk
  rw [View.read_apply]
  show V m c main_v33 _ = V m c main_v33 _
  congr 1
  funext a
  apply Fin.ext
  match a with
  | ⟨0, _⟩ => show win0_2.index t (0 : Fin 2) * 512 + 1 * k.val = k.val; rw [e0]; omega
  | ⟨1, _⟩ => show win0_2.index t (1 : Fin 2) * 256 + 1 * j.val = j.val; rw [e1]; omega

theorem blk3 (c : Dev nD) (t : Fin cfg0.N) (k : Fin 256) (j : Fin 128) :
    (iblk m c 3 t : Vec Ideal S256x128 .bf16) (ix2 k j) = w3Arr m c (ix2 k j) := by
  obtain ⟨e0, e1⟩ := idx3 t
  unfold iblk
  rw [View.read_apply]
  show V m c main_v35 _ = V m c main_v35 _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * j.val = j.val; rw [e1]; omega

theorem blk4 (c : Dev nD) (t : Fin cfg0.N) (k : Fin 128) (j : Fin 8) :
    (iblk m c 4 t : Vec Ideal S128x8 .bf16) (ix2 k j) = w4Arr m c (ix2 k j) := by
  obtain ⟨e0, e1⟩ := idx4 t
  unfold iblk
  rw [View.read_apply]
  show V m c main_v37 _ = V m c main_v37 _
  congr 1
  funext a
  apply Fin.ext
  match a with
  | ⟨0, _⟩ => show win0_4.index t (0 : Fin 2) * 128 + 1 * k.val = k.val; rw [e0]; omega
  | ⟨1, _⟩ => show win0_4.index t (1 : Fin 2) * 8 + 1 * j.val = j.val; rw [e1]; omega

theorem blk5 (c : Dev nD) (t : Fin cfg0.N) (k : Fin 1) (j : Fin 512) :
    (iblk m c 5 t : Vec Ideal S1x512 .f32) (ix2 k j) = s1Arr m c (ix2 k j) := by
  obtain ⟨e0, e1⟩ := idx5 t
  unfold iblk
  rw [View.read_apply]
  show V m c main_v44 _ = V m c main_v44 _
  congr 1
  funext a
  apply Fin.ext
  match a with
  | ⟨0, _⟩ => show win0_5.index t (0 : Fin 2) * 1 + 1 * k.val = k.val; rw [e0]; omega
  | ⟨1, _⟩ => show win0_5.index t (1 : Fin 2) * 512 + 1 * j.val = j.val; rw [e1]; omega

theorem blk6 (c : Dev nD) (t : Fin cfg0.N) (k : Fin 1) (j : Fin 512) :
    (iblk m c 6 t : Vec Ideal S1x512 .f32) (ix2 k j) = sh1Arr m c (ix2 k j) := by
  obtain ⟨e0, e1⟩ := idx6 t
  unfold iblk
  rw [View.read_apply]
  show V m c main_v45 _ = V m c main_v45 _
  congr 1
  funext a
  apply Fin.ext
  match a with
  | ⟨0, _⟩ => show win0_6.index t (0 : Fin 2) * 1 + 1 * k.val = k.val; rw [e0]; omega
  | ⟨1, _⟩ => show win0_6.index t (1 : Fin 2) * 512 + 1 * j.val = j.val; rw [e1]; omega

theorem blk7 (c : Dev nD) (t : Fin cfg0.N) (k : Fin 1) (j : Fin 256) :
    (iblk m c 7 t : Vec Ideal S1x256 .f32) (ix2 k j) = s2Arr m c (ix2 k j) := by
  obtain ⟨e0, e1⟩ := idx7 t
  unfold iblk
  rw [View.read_apply]
  show V m c main_v52 _ = V m c main_v52 _
  congr 1
  funext a
  apply Fin.ext
  match a with
  | ⟨0, _⟩ => show win0_7.index t (0 : Fin 2) * 1 + 1 * k.val = k.val; rw [e0]; omega
  | ⟨1, _⟩ => show win0_7.index t (1 : Fin 2) * 256 + 1 * j.val = j.val; rw [e1]; omega

theorem blk8 (c : Dev nD) (t : Fin cfg0.N) (k : Fin 1) (j : Fin 256) :
    (iblk m c 8 t : Vec Ideal S1x256 .f32) (ix2 k j) = sh2Arr m c (ix2 k j) := by
  obtain ⟨e0, e1⟩ := idx8 t
  unfold iblk
  rw [View.read_apply]
  show V m c main_v53 _ = V m c main_v53 _
  congr 1
  funext a
  apply Fin.ext
  match a with
  | ⟨0, _⟩ => show win0_8.index t (0 : Fin 2) * 1 + 1 * k.val = k.val; rw [e0]; omega
  | ⟨1, _⟩ => show win0_8.index t (1 : Fin 2) * 256 + 1 * j.val = j.val; rw [e1]; omega

theorem blk9 (c : Dev nD) (t : Fin cfg0.N) (k : Fin 1) (j : Fin 128) :
    (iblk m c 9 t : Vec Ideal S1x128 .f32) (ix2 k j) = s3Arr m c (ix2 k j) := by
  obtain ⟨e0, e1⟩ := idx9 t
  unfold iblk
  rw [View.read_apply]
  show V m c main_v60 _ = V m c main_v60 _
  congr 1
  funext a
  apply Fin.ext
  match a with
  | ⟨0, _⟩ => show win0_9.index t (0 : Fin 2) * 1 + 1 * k.val = k.val; rw [e0]; omega
  | ⟨1, _⟩ => show win0_9.index t (1 : Fin 2) * 128 + 1 * j.val = j.val; rw [e1]; omega

theorem blk10 (c : Dev nD) (t : Fin cfg0.N) (k : Fin 1) (j : Fin 128) :
    (iblk m c 10 t : Vec Ideal S1x128 .f32) (ix2 k j) = sh3Arr m c (ix2 k j) := by
  obtain ⟨e0, e1⟩ := idx10 t
  unfold iblk
  rw [View.read_apply]
  show V m c main_v61 _ = V m c main_v61 _
  congr 1
  funext a
  apply Fin.ext
  match a with
  | ⟨0, _⟩ => show win0_10.index t (0 : Fin 2) * 1 + 1 * k.val = k.val; rw [e0]; omega
  | ⟨1, _⟩ => show win0_10.index t (1 : Fin 2) * 128 + 1 * j.val = j.val; rw [e1]; omega

/-- Entry `(p, o)` of point `t`'s output block sits at `(2048 t + p, o)` of the result. -/
theorem emb_out (t : Fin cfg0.N) (p : Fin 2048) (o : Fin 8) :
    (((cfg0.win 11).blk t).view.emb (ix2 p o) : S65536x8.Idx) = ix2 (row t p) o := by
  obtain ⟨e0, e1⟩ := idx11 t
  funext a
  apply Fin.ext
  match a with
  | ⟨0, _⟩ => show win0_11.index t (0 : Fin 2) * 2048 + 1 * p.val = t.val * 2048 + p.val; rw [e0]; omega
  | ⟨1, _⟩ => show win0_11.index t (1 : Fin 2) * 8 + 1 * o.val = o.val; rw [e1]; omega

/-! ## From the blocks to the array -/

/-- What point `t` writes back is block `t` of `G`. -/
theorem flushed_eq (c : Dev nD) (t : Fin cfg0.N) :
    (dats m 0 c).flushed 11 t = ((cfg0.win 11).blk t).view.read (Elt Ideal) (G m c) := by
  rw [Value.flushed11]
  unfold out0_11
  rw [View.canon_unit_zero hz]
  simp only [View.ld_unit_zero (S := S2048x1024) hz, View.ld_unit_zero (S := S1024x512) hz, View.ld_unit_zero (S := S1x512) hz,
    View.ld_unit_zero (S := S512x256) hz, View.ld_unit_zero (S := S1x256) hz, View.ld_unit_zero (S := S256x128) hz,
    View.ld_unit_zero (S := S1x128) hz, View.ld_unit_zero (S := S128x8) hz]
  refine funext fun (j : S2048x8.Idx) => ?_
  obtain ⟨p, o, rfl⟩ : ∃ (p : Fin 2048) (o : Fin 8), j = ix2 p o := ⟨j 0, j 1, eq_ix2 j⟩
  show k0_pay1 (F := Ideal) (k0_pay2 (F := Ideal) (iblk m c 0 t) (iblk m c 1 t) (iblk m c 5 t) (iblk m c 6 t) (iblk m c 2 t)
      (iblk m c 7 t) (iblk m c 8 t)) (iblk m c 3 t) (iblk m c 9 t) (iblk m c 10 t) (iblk m c 4 t) (ix2 p o)
    = G m c (((cfg0.win 11).blk t).view.emb (ix2 p o))
  rw [emb_out]
  exact block_apply_of_eq (iblk m c 0 t) (iblk m c 1 t) (iblk m c 5 t) (iblk m c 6 t) (iblk m c 2 t) (iblk m c 7 t)
    (iblk m c 8 t) (iblk m c 3 t) (iblk m c 9 t) (iblk m c 10 t) (iblk m c 4 t) p o
    (fun k => xArr m c (ix2 (row t p) k)) (matOf (w1Arr m c)) (rowOf (s1Arr m c)) (rowOf (sh1Arr m c))
    (matOf (w2Arr m c)) (rowOf (s2Arr m c)) (rowOf (sh2Arr m c)) (matOf (w3Arr m c)) (rowOf (s3Arr m c)) (rowOf (sh3Arr m c))
    (matOf (w4Arr m c))
    (fun k => blk0 m c t p k) (fun k j => blk1 m c t k j) (fun j => blk5 m c t 0 j) (fun j => blk6 m c t 0 j)
    (fun k j => blk2 m c t k j) (fun j => blk7 m c t 0 j) (fun j => blk8 m c t 0 j)
    (fun k j => blk3 m c t k j) (fun j => blk9 m c t 0 j) (fun j => blk10 m c t 0 j)
    (fun k j => blk4 m c t k j)

/-- An index of the result is in point `t`'s block iff each coordinate is in the block's range on its axis. -/
theorem mem_blk (t : Fin cfg0.N) (i : S65536x8.Idx) :
    i ∈ ((cfg0.win 11).blk t).view.set ↔ ∀ a : Fin 2, win0_11.index t a * S2048x8.size a ≤ (i a).val ∧ (i a).val < win0_11.index t a * S2048x8.size a + S2048x8.size a := by
  show i ∈ ((View.whole main_v62).slice (win0_11.rect t)).set ↔ _
  rw [View.set_slice_whole, Rect.mem_set_unit]
  exact Iff.rfl

/-- Every index of the result is in the block of the point its row falls in. -/
theorem cover (i : S65536x8.Idx) :
    ∃ t : Fin cfg0.N, (cfg0.win 11).flush t = true ∧ i ∈ ((cfg0.win 11).blk t).view.set := by
  have hi0 : (i 0).val < 65536 := (i 0).isLt
  have hi1 : (i 1).val < 8 := (i 1).isLt
  have hN : cfg0.N = 32 := N_0
  have ht : (i 0).val / 2048 < cfg0.N := by rw [hN]; omega
  obtain ⟨e0, e1⟩ := idx11 ⟨(i 0).val / 2048, ht⟩
  refine ⟨⟨(i 0).val / 2048, ht⟩, flush0_11 _, ?_⟩
  rw [mem_blk]
  intro a
  match a with
  | ⟨0, _⟩ =>
    show win0_11.index ⟨(i 0).val / 2048, ht⟩ (0 : Fin 2) * 2048 ≤ (i 0).val ∧ (i 0).val < win0_11.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_11.index ⟨(i 0).val / 2048, ht⟩ (1 : Fin 2) * 8 ≤ (i 1).val ∧ (i 1).val < win0_11.index ⟨(i 0).val / 2048, ht⟩ (1 : Fin 2) * 8 + 8
    rw [e1]
    omega

/-- The result array after the run is `G`. -/
theorem final (c : Dev nD) : (dats m 0 c).arrAt 11 cfg0.N = G m c :=
  (dats m 0 c).arrAt_eq_of_cover 11 (G m c) (fun t _ => flushed_eq m c t) cover

end Cert.KernelIdeal.Whole

end
-- ==== Proof.RefValue.lean ====
/-
  The reference's result as the row function with the plain normalisations.

  The reference computes, for every input row, three times: a product with a transposed weight matrix, the batch
  normalisation `((z - m) * r) * g + b` with `r` the reciprocal square root of the variance plus epsilon, and the sign;
  then a last product. Read one operation at a time at an entry `(r, j)` (the generated read lemmas), every
  broadcast of a parameter vector reads the vector at `j`, and a product's entry is the sum over the contracted
  coordinate. So the result's entry `(r, o)` is the row function `BinaryMlp.mlp` with the plain activations, of input
  row `r`, at `o`.
-/
import proofs.«139874_j27230092656811_1_alg».proof.Proof.Gen.ReferenceIdeal.Read
import proofs.«139874_j27230092656811_1_alg».proof.Proof.BinaryMlp

noncomputable section

namespace Cert.ReferenceIdeal.RefValue

open Cert.ReferenceIdeal Cert.ReferenceIdeal.Gen Cert.ReferenceIdeal.Read Idealize.ShloMosaic Idealize.ShloMosaic.ValueIdx Cert.BinaryMlp

/-- The contents of an f32 array of shape `S` on the extended reals. -/
abbrev T (S : Shape) : Type := (⟨S, .f32⟩ : BufTy).Contents (Elt Ideal)

/-- Layer 1 of the reference at entry `(r, j)`: the plain normalisation and the sign of the product's entry. -/
theorem layer1 (x0 : T S65536x1024) (x1 : T S512x1024) (x5 : T S512) (x6 : T S512) (x7 : T S512) (x8 : T S512) (r : Fin 65536) (j : Fin 512) :
    val_main_v29 (F := Ideal) x0 x1 x5 x6 x7 x8 (ix2 r j)
      = actPlain (vecOf x7) (vecOf (val_main_v16 (F := Ideal) x8)) (vecOf x5) (vecOf x6) j
          (dense (fun k => x0 (ix2 r k)) (matOf (val_main_v9 (F := Ideal) x1)) j) := by
  have hl : ∀ k : Fin 1024, lidx_main_v10 (ix2 r j) k = ix2 r k := fun k => funext fun a => by
    match a with
    | ⟨0, _⟩ => rfl
    | ⟨1, _⟩ => rfl
  have hr : ∀ k : Fin 1024, ridx_main_v10 (ix2 r j) k = ix2 k j := fun k => funext fun a => by
    match a with
    | ⟨0, _⟩ => rfl
    | ⟨1, _⟩ => rfl
  have hm : idx_main_v11 (idx_main_v12 (ix2 r j)) = ix1 j := funext fun a => by
    match a with
    | ⟨0, _⟩ => rfl
  have hs : idx_main_v17 (idx_main_v18 (ix2 r j)) = ix1 j := funext fun a => by
    match a with
    | ⟨0, _⟩ => rfl
  have hg : idx_main_v20 (idx_main_v21 (ix2 r j)) = ix1 j := funext fun a => by
    match a with
    | ⟨0, _⟩ => rfl
  have hb : idx_main_v23 (idx_main_v24 (ix2 r j)) = ix1 j := funext fun a => by
    match a with
    | ⟨0, _⟩ => rfl
  rw [val_main_v29_apply, val_main_v28_apply, val_main_v27_apply, val_main_v25_apply, val_main_v22_apply,
    val_main_v19_apply, val_main_v13_apply, val_main_v10_apply, val_main_v12_apply, val_main_v11_apply,
    val_main_v18_apply, val_main_v17_apply, val_main_v21_apply, val_main_v20_apply, val_main_v24_apply,
    val_main_v23_apply, val_main_v26_apply, val_main_cst_3_apply, val_main_call2_v0_apply, val_main_cst_4_apply,
    val_main_call2_v1_apply, val_main_cst_5_apply, hm, hs, hg, hb]
  simp only [hl, hr]
  rfl

/-- Layer 2 of the reference at entry `(r, j)`: the plain normalisation and the sign of the product's entry. -/
theorem layer2 (x0 : T S65536x1024) (x1 : T S512x1024) (x2 : T S256x512) (x5 : T S512) (x6 : T S512) (x7 : T S512) (x8 : T S512) (x9 : T S256) (x10 : T S256) (x11 : T S256) (x12 : T S256) (r : Fin 65536) (j : Fin 256) :
    val_main_v57 (F := Ideal) x0 x1 x2 x5 x6 x7 x8 x9 x10 x11 x12 (ix2 r j)
      = actPlain (vecOf x11) (vecOf (val_main_v44 (F := Ideal) x12)) (vecOf x9) (vecOf x10) j
          (dense (fun k => val_main_v29 (F := Ideal) x0 x1 x5 x6 x7 x8 (ix2 r k)) (matOf (val_main_v37 (F := Ideal) x2)) j) := by
  have hl : ∀ k : Fin 512, lidx_main_v38 (ix2 r j) k = ix2 r k := fun k => funext fun a => by
    match a with
    | ⟨0, _⟩ => rfl
    | ⟨1, _⟩ => rfl
  have hr : ∀ k : Fin 512, ridx_main_v38 (ix2 r j) k = ix2 k j := fun k => funext fun a => by
    match a with
    | ⟨0, _⟩ => rfl
    | ⟨1, _⟩ => rfl
  have hm : idx_main_v39 (idx_main_v40 (ix2 r j)) = ix1 j := funext fun a => by
    match a with
    | ⟨0, _⟩ => rfl
  have hs : idx_main_v45 (idx_main_v46 (ix2 r j)) = ix1 j := funext fun a => by
    match a with
    | ⟨0, _⟩ => rfl
  have hg : idx_main_v48 (idx_main_v49 (ix2 r j)) = ix1 j := funext fun a => by
    match a with
    | ⟨0, _⟩ => rfl
  have hb : idx_main_v51 (idx_main_v52 (ix2 r j)) = ix1 j := funext fun a => by
    match a with
    | ⟨0, _⟩ => rfl
  rw [val_main_v57_apply, val_main_v56_apply, val_main_v55_apply, val_main_v53_apply, val_main_v50_apply,
    val_main_v47_apply, val_main_v41_apply, val_main_v38_apply, val_main_v40_apply, val_main_v39_apply,
    val_main_v46_apply, val_main_v45_apply, val_main_v49_apply, val_main_v48_apply, val_main_v52_apply,
    val_main_v51_apply, val_main_v54_apply, val_main_cst_10_apply, val_main_call4_v0_apply, val_main_cst_11_apply,
    val_main_call4_v1_apply, val_main_cst_12_apply, hm, hs, hg, hb]
  simp only [hl, hr]
  rfl

/-- Layer 3 of the reference at entry `(r, j)`: the plain normalisation and the sign of the product's entry. -/
theorem layer3 (x0 : T S65536x1024) (x1 : T S512x1024) (x2 : T S256x512) (x3 : T S128x256) (x5 : T S512) (x6 : T S512) (x7 : T S512) (x8 : T S512) (x9 : T S256) (x10 : T S256) (x11 : T S256) (x12 : T S256) (x13 : T S128) (x14 : T S128) (x15 : T S128) (x16 : T S128) (r : Fin 65536) (j : Fin 128) :
    val_main_v85 (F := Ideal) x0 x1 x2 x3 x5 x6 x7 x8 x9 x10 x11 x12 x13 x14 x15 x16 (ix2 r j)
      = actPlain (vecOf x15) (vecOf (val_main_v72 (F := Ideal) x16)) (vecOf x13) (vecOf x14) j
          (dense (fun k => val_main_v57 (F := Ideal) x0 x1 x2 x5 x6 x7 x8 x9 x10 x11 x12 (ix2 r k)) (matOf (val_main_v65 (F := Ideal) x3)) j) := by
  have hl : ∀ k : Fin 256, lidx_main_v66 (ix2 r j) k = ix2 r k := fun k => funext fun a => by
    match a with
    | ⟨0, _⟩ => rfl
    | ⟨1, _⟩ => rfl
  have hr : ∀ k : Fin 256, ridx_main_v66 (ix2 r j) k = ix2 k j := fun k => funext fun a => by
    match a with
    | ⟨0, _⟩ => rfl
    | ⟨1, _⟩ => rfl
  have hm : idx_main_v67 (idx_main_v68 (ix2 r j)) = ix1 j := funext fun a => by
    match a with
    | ⟨0, _⟩ => rfl
  have hs : idx_main_v73 (idx_main_v74 (ix2 r j)) = ix1 j := funext fun a => by
    match a with
    | ⟨0, _⟩ => rfl
  have hg : idx_main_v76 (idx_main_v77 (ix2 r j)) = ix1 j := funext fun a => by
    match a with
    | ⟨0, _⟩ => rfl
  have hb : idx_main_v79 (idx_main_v80 (ix2 r j)) = ix1 j := funext fun a => by
    match a with
    | ⟨0, _⟩ => rfl
  rw [val_main_v85_apply, val_main_v84_apply, val_main_v83_apply, val_main_v81_apply, val_main_v78_apply,
    val_main_v75_apply, val_main_v69_apply, val_main_v66_apply, val_main_v68_apply, val_main_v67_apply,
    val_main_v74_apply, val_main_v73_apply, val_main_v77_apply, val_main_v76_apply, val_main_v80_apply,
    val_main_v79_apply, val_main_v82_apply, val_main_cst_17_apply, val_main_call6_v0_apply, val_main_cst_18_apply,
    val_main_call6_v1_apply, val_main_cst_19_apply, hm, hs, hg, hb]
  simp only [hl, hr]
  rfl

/-- The reference's reciprocal standard deviations, entry by entry. -/
theorem rstd1 (x8 : T S512) (j : Fin 512) : vecOf (val_main_v16 (F := Ideal) x8) j = rstd (x8 (ix1 j)) := by
  show val_main_v16 (F := Ideal) x8 (ix1 j) = _
  rw [val_main_v16_apply, val_main_v15_apply, val_main_v14_apply, val_main_cst_2_apply]
  rfl
theorem rstd2 (x12 : T S256) (j : Fin 256) : vecOf (val_main_v44 (F := Ideal) x12) j = rstd (x12 (ix1 j)) := by
  show val_main_v44 (F := Ideal) x12 (ix1 j) = _
  rw [val_main_v44_apply, val_main_v43_apply, val_main_v42_apply, val_main_cst_9_apply]
  rfl
theorem rstd3 (x16 : T S128) (j : Fin 128) : vecOf (val_main_v72 (F := Ideal) x16) j = rstd (x16 (ix1 j)) := by
  show val_main_v72 (F := Ideal) x16 (ix1 j) = _
  rw [val_main_v72_apply, val_main_v71_apply, val_main_v70_apply, val_main_cst_16_apply]
  rfl

/-- The last product at entry `(r, o)`. -/
theorem last (x0 : T S65536x1024) (x1 : T S512x1024) (x2 : T S256x512) (x3 : T S128x256) (x4 : T S8x128) (x5 : T S512) (x6 : T S512) (x7 : T S512) (x8 : T S512) (x9 : T S256) (x10 : T S256) (x11 : T S256) (x12 : T S256) (x13 : T S128) (x14 : T S128) (x15 : T S128) (x16 : T S128) (r : Fin 65536) (o : Fin 8) :
    val_main_v94 (F := Ideal) x0 x1 x2 x3 x4 x5 x6 x7 x8 x9 x10 x11 x12 x13 x14 x15 x16 (ix2 r o)
      = dense (fun k => val_main_v85 (F := Ideal) x0 x1 x2 x3 x5 x6 x7 x8 x9 x10 x11 x12 x13 x14 x15 x16 (ix2 r k))
          (matOf (val_main_v93 (F := Ideal) x4)) o := by
  have hl : ∀ k : Fin 128, lidx_main_v94 (ix2 r o) k = ix2 r k := fun k => funext fun a => by
    match a with
    | ⟨0, _⟩ => rfl
    | ⟨1, _⟩ => rfl
  have hr : ∀ k : Fin 128, ridx_main_v94 (ix2 r o) k = ix2 k o := fun k => funext fun a => by
    match a with
    | ⟨0, _⟩ => rfl
    | ⟨1, _⟩ => rfl
  rw [val_main_v94_apply]
  simp only [hl, hr]
  rfl

/-- The reference's result at an entry: the row function with the plain activations. -/
theorem result_apply (x0 : T S65536x1024) (x1 : T S512x1024) (x2 : T S256x512) (x3 : T S128x256) (x4 : T S8x128) (x5 : T S512) (x6 : T S512) (x7 : T S512) (x8 : T S512) (x9 : T S256) (x10 : T S256) (x11 : T S256) (x12 : T S256) (x13 : T S128) (x14 : T S128) (x15 : T S128) (x16 : T S128) (i : S65536x8.Idx) :
    val_main_v94 (F := Ideal) x0 x1 x2 x3 x4 x5 x6 x7 x8 x9 x10 x11 x12 x13 x14 x15 x16 i
      = mlp (actPlain (vecOf x7) (vecOf (val_main_v16 (F := Ideal) x8)) (vecOf x5) (vecOf x6))
          (actPlain (vecOf x11) (vecOf (val_main_v44 (F := Ideal) x12)) (vecOf x9) (vecOf x10))
          (actPlain (vecOf x15) (vecOf (val_main_v72 (F := Ideal) x16)) (vecOf x13) (vecOf x14))
          (matOf (val_main_v9 (F := Ideal) x1)) (matOf (val_main_v37 (F := Ideal) x2)) (matOf (val_main_v65 (F := Ideal) x3))
          (matOf (val_main_v93 (F := Ideal) x4)) (fun k => x0 (ix2 (i 0) k)) (i 1) := by
  obtain ⟨r, o, rfl⟩ : ∃ (r : Fin 65536) (o : Fin 8), i = ix2 r o := ⟨i 0, i 1, eq_ix2 i⟩
  rw [last]
  simp only [layer3, layer2, layer1]
  rfl

end Cert.ReferenceIdeal.RefValue

end
-- ==== Proof.LibFinite.lean ====
/-
  A printed `all`-reduction of a float comparison, read back on the extended reals (a general lemma file: nothing in
  it mentions a program).

  A precondition's conjunct `jnp.all(|x| < +inf)` prints as a reduction by `and`, from the constant 1, of the
  comparison of `|x|` with the scalar constant `0x7F800000` broadcast to `x`'s shape; `jnp.all(x >= 0)` the same with
  `0x00000000`. When the reduction is 1: every entry of `x` is a real number (`real_of_all`), respectively
  non-negative (`nonneg_of_all`), for any shape and any reduced axes. Also: a scalar float constant broadcast to any
  shape reads the constant's value at every index (`bcast_const_apply`).
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFinite

open Idealize.ShloMosaic Idealize.ShloMosaic.ValueIdx

/-- The shape of a scalar. -/
abbrev S0 : Shape := ⟨0, ![]⟩

instance : Subsingleton S0.Idx := ⟨fun a b => funext fun d => d.elim0⟩

/-- A scalar constant broadcast to any shape reads the constant's value at every index. -/
theorem bcast_const_apply {t : Shape} (h : S0.BroadcastsInDim t (![] : Fin 0 → Fin t.rank)) (w : BitVec 32) (i : t.Idx) :
    broadcastInDim t (![] : Fin 0 → Fin t.rank) h (constant (F := Ideal) S0 .f32 w) i = Ideal.ofBits .f32 w :=
  broadcastInDim_apply (![] : Fin 0 → Fin t.rank) h _ i ix0 (fun a => a.elim0)

/-- The word `0x7F800000` is `+∞`. -/
theorem ofBits_inf : Ideal.ofBits .f32 0x7F800000#32 = (⊤ : EReal) := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- `all (|x| < +∞)` true: every entry of `x` is a real number. -/
theorem real_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x)
        (broadcastInDim s (![] : Fin 0 → Fin s.rank) hb (constant (F := Ideal) S0 .f32 0x7F800000#32))) (constantI S0 1 1#1) hr hu ix0 = 1#1)
    (i : s.Idx) : ∃ r : ℝ, x i = (r : EReal) := by
  have h1 := Host.reduce_andi_all _ _ hr hu ix0 e i
  rw [cmpf_apply, bcast_const_apply, ofBits_inf] at h1
  exact real_of_abs_lt_top (x i) h1

/-- `all (x ≥ 0)` true: every entry of `x` is non-negative. -/
theorem nonneg_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .oge x
        (broadcastInDim s (![] : Fin 0 → Fin s.rank) hb (constant (F := Ideal) S0 .f32 0x00000000#32))) (constantI S0 1 1#1) hr hu ix0 = 1#1)
    (i : s.Idx) : (0 : EReal) ≤ x i := by
  have h1 := Host.reduce_andi_all _ _ hr hu ix0 e i
  rw [cmpf_apply, bcast_const_apply, Ideal.ofBits_zero_f32] at h1
  have h2 : Ideal.cmp .oge (x i) 0 = 1#1 := h1
  unfold Ideal.cmp at h2
  by_cases hx : (0 : EReal) ≤ x i
  · exact hx
  · simp [hx] at h2

end Cert.LibFinite

end
-- ==== Proof.Domain.lean ====
/-
  What the precondition says of the batch-normalisation parameters.

  The precondition is a conjunction of twenty `all`-reductions: for each of the seventeen input arrays, that the
  absolute value of every entry is below `+∞`; and for each of the three variance vectors, that every entry is `≥ 0`.
  On the extended reals `|x| < +∞` says that `x` is a real number. Read here: every entry of the scale, shift, mean and
  variance vectors of the three normalisations is a real, and every variance is non-negative. (The input rows and the
  weight matrices are finite too; the proof does not need it.)
-/
import proofs.«139874_j27230092656811_1_alg».proof.Pre_finite_inputs
import proofs.«139874_j27230092656811_1_alg».proof.Proof.BinaryMlp
import proofs.«139874_j27230092656811_1_alg».proof.Proof.LibFinite
import Idealize.ShloMosaic.Lib.ValueLayout
import Idealize.ShloMosaic.Lib.ValueIdx
import Idealize.ShloMosaic.Lib.Pipeline.Value
import Idealize.ShloMosaic.PureOps.Ideal.Laws

noncomputable section

namespace Cert.Domain

open Idealize.ShloMosaic Idealize.ShloMosaic.ValueIdx Cert.LibFinite

/-- The word `0x3727C5AC` (the epsilon of the normalisations, `1e-5` rounded to f32) is the real `10995116 / 2^40`. -/
theorem eps_val : Ideal.ofBits .f32 0x3727C5AC#32 = (((10995116 : ℝ) / 2 ^ 40 : ℝ) : EReal) := by
  simp [Ideal.ofBits, Ideal.ieee, -EReal.coe_mul]
  norm_num

/-- The reciprocal square root of a non-negative real plus that epsilon is a real number: the argument is positive. -/
theorem rstd_real (v : EReal) (hv : ∃ r : ℝ, v = (r : EReal)) (h0 : (0 : EReal) ≤ v) :
    ∃ r : ℝ, Cert.BinaryMlp.rstd v = (r : EReal) := by
  obtain ⟨x, rfl⟩ := hv
  have hx : 0 ≤ x := EReal.coe_nonneg.1 h0
  have he : (0 : ℝ) < 10995116 / 2 ^ 40 := by norm_num
  have h1 : ¬ (x + 10995116 / 2 ^ 40 < 0) := by linarith
  have h2 : ¬ (x + 10995116 / 2 ^ 40 = 0) := by linarith
  refine ⟨(Real.sqrt (x + 10995116 / 2 ^ 40))⁻¹, ?_⟩
  show Ideal.rsqrt ((x : EReal) + Ideal.ofBits .f32 0x3727C5AC#32) = _
  rw [eps_val, ← EReal.coe_add]
  show (if x + 10995116 / 2 ^ 40 < 0 then (⊥ : EReal) else if x + 10995116 / 2 ^ 40 = 0 then ⊤
    else (((Real.sqrt (x + 10995116 / 2 ^ 40))⁻¹ : ℝ) : EReal)) = _
  rw [if_neg h1, if_neg h2]

/-- The kernel's scale row: the `[n]` vector `g * rsqrt (v + eps)` cast to `[1, n]`, read at column `j`. -/
theorem scale_row_apply {n : ℕ} (g v : FVec Ideal ⟨1, ![n]⟩ .f32)
    (hb : S0.BroadcastsInDim ⟨1, ![n]⟩ (![] : Fin 0 → Fin 1)) (hc : (⟨1, ![n]⟩ : Shape).ShapeCasts ⟨2, ![1, n]⟩) (j : Fin n) :
    shapeCast ⟨2, ![1, n]⟩ (mulf g (Host.rsqrt (addf v
        (broadcastInDim ⟨1, ![n]⟩ (![] : Fin 0 → Fin 1) hb (constant (F := Ideal) S0 .f32 0x3727C5AC#32))))) hc (ix2 (0 : Fin 1) j)
      = g (ix1 j) * Cert.BinaryMlp.rstd (v (ix1 j)) := by
  rw [shapeCast_a_1a_apply]
  show g (ix1 j) * FloatOps.hostUnary (F := Ideal) (φ := .f32) .rsqrt (v (ix1 j)
      + broadcastInDim ⟨1, ![n]⟩ (![] : Fin 0 → Fin 1) hb (constant (F := Ideal) S0 .f32 0x3727C5AC#32) (ix1 j)) = _
  rw [bcast_const_apply]
  rfl

/-- The kernel's shift row: the `[n]` vector `b - m * (g * rsqrt (v + eps))` cast to `[1, n]`, read at column `j`. -/
theorem shift_row_apply {n : ℕ} (g b mu v : FVec Ideal ⟨1, ![n]⟩ .f32)
    (hb : S0.BroadcastsInDim ⟨1, ![n]⟩ (![] : Fin 0 → Fin 1)) (hc : (⟨1, ![n]⟩ : Shape).ShapeCasts ⟨2, ![1, n]⟩) (j : Fin n) :
    shapeCast ⟨2, ![1, n]⟩ (subf b (mulf mu (mulf g (Host.rsqrt (addf v
        (broadcastInDim ⟨1, ![n]⟩ (![] : Fin 0 → Fin 1) hb (constant (F := Ideal) S0 .f32 0x3727C5AC#32))))))) hc (ix2 (0 : Fin 1) j)
      = b (ix1 j) - mu (ix1 j) * (g (ix1 j) * Cert.BinaryMlp.rstd (v (ix1 j))) := by
  rw [shapeCast_a_1a_apply]
  show b (ix1 j) - mu (ix1 j) * (g (ix1 j) * FloatOps.hostUnary (F := Ideal) (φ := .f32) .rsqrt (v (ix1 j)
      + broadcastInDim ⟨1, ![n]⟩ (![] : Fin 0 → Fin 1) hb (constant (F := Ideal) S0 .f32 0x3727C5AC#32) (ix1 j))) = _
  rw [bcast_const_apply]
  rfl

/-- What the proof uses of one normalisation's parameters: the scale `g`, shift `b`, mean `m` and variance `v` are real
    entry by entry, and the variance is non-negative. -/
structure RealParams {s : Shape} (g b m v : FVec Ideal s .f32) : Prop where
  g_real : ∀ i, ∃ r : ℝ, g i = (r : EReal)
  b_real : ∀ i, ∃ r : ℝ, b i = (r : EReal)
  m_real : ∀ i, ∃ r : ℝ, m i = (r : EReal)
  v_real : ∀ i, ∃ r : ℝ, v i = (r : EReal)
  v_nonneg : ∀ i, (0 : EReal) ≤ v i

open Cert.Pre_finite_inputs in
/-- The precondition, read: the three normalisations' parameters are real and their variances non-negative. -/
theorem params_of_pre [Cert.Pre_finite_inputs.Facts]
    (a0 : FVec Ideal S65536x1024 .f32) (a1 : FVec Ideal S512x1024 .f32) (a2 : FVec Ideal S256x512 .f32)
    (a3 : FVec Ideal S128x256 .f32) (a4 : FVec Ideal S8x128 .f32) (a5 a6 a7 a8 : FVec Ideal S512 .f32)
    (a9 a10 a11 a12 : FVec Ideal S256 .f32) (a13 a14 a15 a16 : FVec Ideal S128 .f32)
    (h : Cert.Pre_finite_inputs.fn (F := Ideal) a0 a1 a2 a3 a4 a5 a6 a7 a8 a9 a10 a11 a12 a13 a14 a15 a16 = fun _ => 1#1) :
    RealParams a5 a6 a7 a8 ∧ RealParams a9 a10 a11 a12 ∧ RealParams a13 a14 a15 a16 := by
  have h0 := congrFun h ix0
  obtain ⟨h0, c19⟩ := IntOp.andi_eq_one.1 h0
  obtain ⟨h0, c18⟩ := IntOp.andi_eq_one.1 h0
  obtain ⟨h0, c17⟩ := IntOp.andi_eq_one.1 h0
  obtain ⟨h0, c16⟩ := IntOp.andi_eq_one.1 h0
  obtain ⟨h0, c15⟩ := IntOp.andi_eq_one.1 h0
  obtain ⟨h0, c14⟩ := IntOp.andi_eq_one.1 h0
  obtain ⟨h0, c13⟩ := IntOp.andi_eq_one.1 h0
  obtain ⟨h0, c12⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  exact ⟨⟨real_of_all a5 _ _ _ c5, real_of_all a6 _ _ _ c6, real_of_all a7 _ _ _ c7, real_of_all a8 _ _ _ c8,
      nonneg_of_all a8 _ _ _ c17⟩,
    ⟨real_of_all a9 _ _ _ c9, real_of_all a10 _ _ _ c10, real_of_all a11 _ _ _ c11, real_of_all a12 _ _ _ c12,
      nonneg_of_all a12 _ _ _ c18⟩,
    ⟨real_of_all a13 _ _ _ c13, real_of_all a14 _ _ _ c14, real_of_all a15 _ _ _ c15, real_of_all a16 _ _ _ c16,
      nonneg_of_all a16 _ _ _ c19⟩⟩

end Cert.Domain

end
-- ==== Proof.Bridge.lean ====
/-
  The kernel's result array is the reference's result, entry by entry.

  Before its one region the kernel's program prepares, on the host, the four weight matrices (quantised exactly as
  the reference quantises them, transposed, and changed to a narrower float format, which is the identity on the
  extended reals) and, per normalisation, the scale row `g * rsqrt (v + eps)` and the shift row
  `b - m * (g * rsqrt (v + eps))`. The reference applies the normalisation unfolded, `((z - m) * rsqrt (v + eps)) * g + b`.
  Under the precondition the parameters are real and `v ≥ 0`, so `rsqrt (v + eps)` is a real number and the folded and
  the unfolded activations are one function of `z` (`BinaryMlp.actFolded_eq_actPlain`): both programs compute the same
  row function of the same input row with the same weights.
-/
import proofs.«139874_j27230092656811_1_alg».proof.Proof.KernelValue
import proofs.«139874_j27230092656811_1_alg».proof.Proof.RefValue
import proofs.«139874_j27230092656811_1_alg».proof.Proof.Domain
import proofs.«139874_j27230092656811_1_alg».proof.Proof.Gen.Pre_finite_inputs
import Idealize.ShloMosaic.Lib.StableHlo.Run

set_option maxRecDepth 16384

noncomputable section

namespace Cert.Bridge

open Cert.KernelIdeal Cert.KernelIdeal.Gen Cert.KernelIdeal.Facts Idealize.ShloMosaic Idealize.ShloMosaic.TcCoe Idealize.SL.Sem
open Idealize.ShloMosaic.StableHlo Idealize.ShloMosaic.ValueIdx Cert.BinaryMlp Cert.KernelIdeal.Whole

variable (m : (ℓ : Loc nD τ sig) → Buf (Elt Ideal) ℓ)

/-! ## The argument arrays of core `c`, as launched -/

abbrev a0 (c : Dev nD) : FVec Ideal S65536x1024 .f32 := m ((c : Thread nD τ).loc main_arg0)
abbrev a1 (c : Dev nD) : FVec Ideal S512x1024 .f32 := m ((c : Thread nD τ).loc main_arg1)
abbrev a2 (c : Dev nD) : FVec Ideal S256x512 .f32 := m ((c : Thread nD τ).loc main_arg2)
abbrev a3 (c : Dev nD) : FVec Ideal S128x256 .f32 := m ((c : Thread nD τ).loc main_arg3)
abbrev a4 (c : Dev nD) : FVec Ideal S8x128 .f32 := m ((c : Thread nD τ).loc main_arg4)
abbrev a5 (c : Dev nD) : FVec Ideal S512 .f32 := m ((c : Thread nD τ).loc main_arg5)
abbrev a6 (c : Dev nD) : FVec Ideal S512 .f32 := m ((c : Thread nD τ).loc main_arg6)
abbrev a7 (c : Dev nD) : FVec Ideal S512 .f32 := m ((c : Thread nD τ).loc main_arg7)
abbrev a8 (c : Dev nD) : FVec Ideal S512 .f32 := m ((c : Thread nD τ).loc main_arg8)
abbrev a9 (c : Dev nD) : FVec Ideal S256 .f32 := m ((c : Thread nD τ).loc main_arg9)
abbrev a10 (c : Dev nD) : FVec Ideal S256 .f32 := m ((c : Thread nD τ).loc main_arg10)
abbrev a11 (c : Dev nD) : FVec Ideal S256 .f32 := m ((c : Thread nD τ).loc main_arg11)
abbrev a12 (c : Dev nD) : FVec Ideal S256 .f32 := m ((c : Thread nD τ).loc main_arg12)
abbrev a13 (c : Dev nD) : FVec Ideal S128 .f32 := m ((c : Thread nD τ).loc main_arg13)
abbrev a14 (c : Dev nD) : FVec Ideal S128 .f32 := m ((c : Thread nD τ).loc main_arg14)
abbrev a15 (c : Dev nD) : FVec Ideal S128 .f32 := m ((c : Thread nD τ).loc main_arg15)
abbrev a16 (c : Dev nD) : FVec Ideal S128 .f32 := m ((c : Thread nD τ).loc main_arg16)

/-! ## What the host operations before the region leave in the region's operands -/

set_option maxHeartbeats 4000000 in
/-- Weight matrix 1: the reference's transposed quantised matrix of the same argument. -/
theorem w1_eq (c : Dev nD) : (V m c main_v31 : S1024x512.Idx → EReal) = Cert.ReferenceIdeal.Read.val_main_v9 (F := Ideal) (a1 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- Weight matrix 2: the reference's transposed quantised matrix of the same argument. -/
theorem w2_eq (c : Dev nD) : (V m c main_v33 : S512x256.Idx → EReal) = Cert.ReferenceIdeal.Read.val_main_v37 (F := Ideal) (a2 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- Weight matrix 3: the reference's transposed quantised matrix of the same argument. -/
theorem w3_eq (c : Dev nD) : (V m c main_v35 : S256x128.Idx → EReal) = Cert.ReferenceIdeal.Read.val_main_v65 (F := Ideal) (a3 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- Weight matrix 4: the reference's transposed quantised matrix of the same argument. -/
theorem w4_eq (c : Dev nD) : (V m c main_v37 : S128x8.Idx → EReal) = Cert.ReferenceIdeal.Read.val_main_v93 (F := Ideal) (a4 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The scale row of normalisation 1. -/
theorem s1_eq (c : Dev nD) : (V m c main_v44 : S1x512.Idx → EReal)
    = shapeCast S1x512 (mulf (a5 m c) (Host.rsqrt (addf (a8 m c)
        (broadcastInDim S512 ![] bcast_S_S512 (constant (F := Ideal) S_ .f32 0x3727C5AC#32))))) shapeCasts_S512_S1x512 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The shift row of normalisation 1. -/
theorem sh1_eq (c : Dev nD) : (V m c main_v45 : S1x512.Idx → EReal)
    = shapeCast S1x512 (subf (a6 m c) (mulf (a7 m c) (mulf (a5 m c) (Host.rsqrt (addf (a8 m c)
        (broadcastInDim S512 ![] bcast_S_S512 (constant (F := Ideal) S_ .f32 0x3727C5AC#32))))))) shapeCasts_S512_S1x512 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The scale row of normalisation 2. -/
theorem s2_eq (c : Dev nD) : (V m c main_v52 : S1x256.Idx → EReal)
    = shapeCast S1x256 (mulf (a9 m c) (Host.rsqrt (addf (a12 m c)
        (broadcastInDim S256 ![] bcast_S_S256 (constant (F := Ideal) S_ .f32 0x3727C5AC#32))))) shapeCasts_S256_S1x256 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The shift row of normalisation 2. -/
theorem sh2_eq (c : Dev nD) : (V m c main_v53 : S1x256.Idx → EReal)
    = shapeCast S1x256 (subf (a10 m c) (mulf (a11 m c) (mulf (a9 m c) (Host.rsqrt (addf (a12 m c)
        (broadcastInDim S256 ![] bcast_S_S256 (constant (F := Ideal) S_ .f32 0x3727C5AC#32))))))) shapeCasts_S256_S1x256 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The scale row of normalisation 3. -/
theorem s3_eq (c : Dev nD) : (V m c main_v60 : S1x128.Idx → EReal)
    = shapeCast S1x128 (mulf (a13 m c) (Host.rsqrt (addf (a16 m c)
        (broadcastInDim S128 ![] bcast_S_S128 (constant (F := Ideal) S_ .f32 0x3727C5AC#32))))) shapeCasts_S128_S1x128 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The shift row of normalisation 3. -/
theorem sh3_eq (c : Dev nD) : (V m c main_v61 : S1x128.Idx → EReal)
    = shapeCast S1x128 (subf (a14 m c) (mulf (a15 m c) (mulf (a13 m c) (Host.rsqrt (addf (a16 m c)
        (broadcastInDim S128 ![] bcast_S_S128 (constant (F := Ideal) S_ .f32 0x3727C5AC#32))))))) shapeCasts_S128_S1x128 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-! ## The folded activations are the plain ones -/

/-- Normalisation 1: with real parameters and a non-negative variance the kernel's folded activation is the
    reference's plain one. -/
theorem act1 (c : Dev nD) (p : Cert.Domain.RealParams (a5 m c) (a6 m c) (a7 m c) (a8 m c)) :
    actFolded (rowOf (s1Arr m c)) (rowOf (sh1Arr m c))
      = actPlain (vecOf (a7 m c)) (vecOf (Cert.ReferenceIdeal.Read.val_main_v16 (F := Ideal) (a8 m c))) (vecOf (a5 m c)) (vecOf (a6 m c)) := by
  have hs : rowOf (s1Arr m c)
      = fun j => vecOf (a5 m c) j * vecOf (Cert.ReferenceIdeal.Read.val_main_v16 (F := Ideal) (a8 m c)) j := funext fun j => by
    show (V m c main_v44 : S1x512.Idx → EReal) (ix2 (0 : Fin 1) j) = _
    rw [s1_eq, Cert.Domain.scale_row_apply, Cert.ReferenceIdeal.RefValue.rstd1]
  have hh : rowOf (sh1Arr m c)
      = fun j => vecOf (a6 m c) j - vecOf (a7 m c) j
          * (vecOf (a5 m c) j * vecOf (Cert.ReferenceIdeal.Read.val_main_v16 (F := Ideal) (a8 m c)) j) := funext fun j => by
    show (V m c main_v45 : S1x512.Idx → EReal) (ix2 (0 : Fin 1) j) = _
    rw [sh1_eq, Cert.Domain.shift_row_apply, Cert.ReferenceIdeal.RefValue.rstd1]
  rw [hs, hh]
  choose gR hg using p.g_real
  choose bR hb using p.b_real
  choose mR hm using p.m_real
  have hr : ∀ j : Fin 512, ∃ r : ℝ, vecOf (Cert.ReferenceIdeal.Read.val_main_v16 (F := Ideal) (a8 m c)) j = (r : EReal) := fun j => by
    rw [Cert.ReferenceIdeal.RefValue.rstd1]
    exact Cert.Domain.rstd_real _ (p.v_real (ix1 j)) (p.v_nonneg (ix1 j))
  choose rR hrR using hr
  exact actFolded_eq_actPlain _ _ _ _ (fun j => gR (ix1 j)) (fun j => bR (ix1 j)) (fun j => mR (ix1 j)) rR
    (fun j => hg (ix1 j)) (fun j => hb (ix1 j)) (fun j => hm (ix1 j)) hrR

/-- Normalisation 2: with real parameters and a non-negative variance the kernel's folded activation is the
    reference's plain one. -/
theorem act2 (c : Dev nD) (p : Cert.Domain.RealParams (a9 m c) (a10 m c) (a11 m c) (a12 m c)) :
    actFolded (rowOf (s2Arr m c)) (rowOf (sh2Arr m c))
      = actPlain (vecOf (a11 m c)) (vecOf (Cert.ReferenceIdeal.Read.val_main_v44 (F := Ideal) (a12 m c))) (vecOf (a9 m c)) (vecOf (a10 m c)) := by
  have hs : rowOf (s2Arr m c)
      = fun j => vecOf (a9 m c) j * vecOf (Cert.ReferenceIdeal.Read.val_main_v44 (F := Ideal) (a12 m c)) j := funext fun j => by
    show (V m c main_v52 : S1x256.Idx → EReal) (ix2 (0 : Fin 1) j) = _
    rw [s2_eq, Cert.Domain.scale_row_apply, Cert.ReferenceIdeal.RefValue.rstd2]
  have hh : rowOf (sh2Arr m c)
      = fun j => vecOf (a10 m c) j - vecOf (a11 m c) j
          * (vecOf (a9 m c) j * vecOf (Cert.ReferenceIdeal.Read.val_main_v44 (F := Ideal) (a12 m c)) j) := funext fun j => by
    show (V m c main_v53 : S1x256.Idx → EReal) (ix2 (0 : Fin 1) j) = _
    rw [sh2_eq, Cert.Domain.shift_row_apply, Cert.ReferenceIdeal.RefValue.rstd2]
  rw [hs, hh]
  choose gR hg using p.g_real
  choose bR hb using p.b_real
  choose mR hm using p.m_real
  have hr : ∀ j : Fin 256, ∃ r : ℝ, vecOf (Cert.ReferenceIdeal.Read.val_main_v44 (F := Ideal) (a12 m c)) j = (r : EReal) := fun j => by
    rw [Cert.ReferenceIdeal.RefValue.rstd2]
    exact Cert.Domain.rstd_real _ (p.v_real (ix1 j)) (p.v_nonneg (ix1 j))
  choose rR hrR using hr
  exact actFolded_eq_actPlain _ _ _ _ (fun j => gR (ix1 j)) (fun j => bR (ix1 j)) (fun j => mR (ix1 j)) rR
    (fun j => hg (ix1 j)) (fun j => hb (ix1 j)) (fun j => hm (ix1 j)) hrR

/-- Normalisation 3: with real parameters and a non-negative variance the kernel's folded activation is the
    reference's plain one. -/
theorem act3 (c : Dev nD) (p : Cert.Domain.RealParams (a13 m c) (a14 m c) (a15 m c) (a16 m c)) :
    actFolded (rowOf (s3Arr m c)) (rowOf (sh3Arr m c))
      = actPlain (vecOf (a15 m c)) (vecOf (Cert.ReferenceIdeal.Read.val_main_v72 (F := Ideal) (a16 m c))) (vecOf (a13 m c)) (vecOf (a14 m c)) := by
  have hs : rowOf (s3Arr m c)
      = fun j => vecOf (a13 m c) j * vecOf (Cert.ReferenceIdeal.Read.val_main_v72 (F := Ideal) (a16 m c)) j := funext fun j => by
    show (V m c main_v60 : S1x128.Idx → EReal) (ix2 (0 : Fin 1) j) = _
    rw [s3_eq, Cert.Domain.scale_row_apply, Cert.ReferenceIdeal.RefValue.rstd3]
  have hh : rowOf (sh3Arr m c)
      = fun j => vecOf (a14 m c) j - vecOf (a15 m c) j
          * (vecOf (a13 m c) j * vecOf (Cert.ReferenceIdeal.Read.val_main_v72 (F := Ideal) (a16 m c)) j) := funext fun j => by
    show (V m c main_v61 : S1x128.Idx → EReal) (ix2 (0 : Fin 1) j) = _
    rw [sh3_eq, Cert.Domain.shift_row_apply, Cert.ReferenceIdeal.RefValue.rstd3]
  rw [hs, hh]
  choose gR hg using p.g_real
  choose bR hb using p.b_real
  choose mR hm using p.m_real
  have hr : ∀ j : Fin 128, ∃ r : ℝ, vecOf (Cert.ReferenceIdeal.Read.val_main_v72 (F := Ideal) (a16 m c)) j = (r : EReal) := fun j => by
    rw [Cert.ReferenceIdeal.RefValue.rstd3]
    exact Cert.Domain.rstd_real _ (p.v_real (ix1 j)) (p.v_nonneg (ix1 j))
  choose rR hrR using hr
  exact actFolded_eq_actPlain _ _ _ _ (fun j => gR (ix1 j)) (fun j => bR (ix1 j)) (fun j => mR (ix1 j)) rR
    (fun j => hg (ix1 j)) (fun j => hb (ix1 j)) (fun j => hm (ix1 j)) hrR

/-! ## The two results -/

/-- Under the precondition the kernel's result array is the reference's result of the same arguments. -/
theorem G_eq (c : Dev nD)
    (hp : Cert.Pre_finite_inputs.fn (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) = fun _ => 1#1) :
    G m c = Cert.ReferenceIdeal.Read.val_main_v94 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  obtain ⟨p1, p2, p3⟩ := Cert.Domain.params_of_pre (a0 m c) (a1 m c) (a2 m c) (a3 m c) (a4 m c) (a5 m c) (a6 m c) (a7 m c) (a8 m c) (a9 m c) (a10 m c) (a11 m c) (a12 m c) (a13 m c) (a14 m c) (a15 m c) (a16 m c) hp
  funext i
  rw [Cert.ReferenceIdeal.RefValue.result_apply]
  have hx : xArr m c = a0 m c := V_main_arg0 m c
  have e1 : matOf (w1Arr m c) = matOf (Cert.ReferenceIdeal.Read.val_main_v9 (F := Ideal) (a1 m c)) := congrArg matOf (w1_eq m c)
  have e2 : matOf (w2Arr m c) = matOf (Cert.ReferenceIdeal.Read.val_main_v37 (F := Ideal) (a2 m c)) := congrArg matOf (w2_eq m c)
  have e3 : matOf (w3Arr m c) = matOf (Cert.ReferenceIdeal.Read.val_main_v65 (F := Ideal) (a3 m c)) := congrArg matOf (w3_eq m c)
  have e4 : matOf (w4Arr m c) = matOf (Cert.ReferenceIdeal.Read.val_main_v93 (F := Ideal) (a4 m c)) := congrArg matOf (w4_eq m c)
  unfold G
  rw [act1 m c p1, act2 m c p2, act3 m c p3, e1, e2, e3, e4, hx]

end Cert.Bridge

end
-- ==== Proof.lean ====
/-
  A binarised four-layer perceptron evaluated over 65536 rows: the kernel against its jnp reference, on the
  extended reals.

  Both programs quantise the four weight matrices on the host in the same way and, for every input row, apply three
  times a product with a weight matrix, an affine batch normalisation and the sign, then a last product. The kernel
  folds each normalisation into a scale `g * rsqrt (v + eps)` and a shift `b - m * (g * rsqrt (v + eps))` and runs the
  rows in 32 blocks of 2048 on a grid; the reference normalises as `((z - m) * rsqrt (v + eps)) * g + b`. The
  precondition says that every input is finite and every variance is `≥ 0`; then `rsqrt (v + eps)` is a real number and
  the two normalisations agree for every product value `z`, finite or not (`BinaryMlp.bn_fold`), so the signs agree and
  the results are equal entry by entry (`Bridge.G_eq`).

  The frames of the two kernel programs are the generated ones; the reference's frame is its generated run with the
  result dropped. The ideal pass's ledger is empty, so there is nothing to preserve.
-/
import proofs.«139874_j27230092656811_1_alg».proof.Defs
import proofs.«139874_j27230092656811_1_alg».proof.Proof.Gen.Kernel
import proofs.«139874_j27230092656811_1_alg».proof.Proof.Gen.Kernel.Skeleton
import proofs.«139874_j27230092656811_1_alg».proof.Proof.Gen.Kernel.Launch
import proofs.«139874_j27230092656811_1_alg».proof.Proof.Gen.Kernel.Points
import proofs.«139874_j27230092656811_1_alg».proof.Proof.Gen.Kernel.Frame
import proofs.«139874_j27230092656811_1_alg».proof.Proof.Gen.KernelIdeal
import proofs.«139874_j27230092656811_1_alg».proof.Proof.Gen.KernelIdeal.Skeleton
import proofs.«139874_j27230092656811_1_alg».proof.Proof.Gen.KernelIdeal.Launch
import proofs.«139874_j27230092656811_1_alg».proof.Proof.Gen.KernelIdeal.Points
import proofs.«139874_j27230092656811_1_alg».proof.Proof.Gen.KernelIdeal.Frame
import proofs.«139874_j27230092656811_1_alg».proof.Proof.Gen.ReferenceIdeal
import proofs.«139874_j27230092656811_1_alg».proof.Proof.Gen.Pre_finite_inputs
import proofs.«139874_j27230092656811_1_alg».proof.Proof.Gen.KernelIdeal.Value
import proofs.«139874_j27230092656811_1_alg».proof.Proof.Gen.ReferenceIdeal.Run
import proofs.«139874_j27230092656811_1_alg».proof.Proof.Gen.ReferenceIdeal.Read
import proofs.«139874_j27230092656811_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- The idealised kernel runs and leaves its arguments as they were. -/
theorem frame_kernelIdeal : Cert.frame_KernelIdeal := fun m ρ _ => Cert.KernelIdeal.Gen.frame m ρ

/-- The idealised reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, the idealised kernel's result array and the idealised reference's
    result are the same function of the arguments: the kernel's is `G` (its 32 blocks cover the array), the
    reference's is its last operation's value, and the two are equal under the precondition. -/
theorem algebraic : Cert.algebraic_KernelIdeal_ReferenceIdeal := by
  intro m ρ m' ρ' hpre hagree
  refine ⟨fun c => Cert.KernelIdeal.Whole.G m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v94_eq, h0, h1, h2, h3, h4, h5, h6, h7, h8, h9, h10, h11, h12, h13, h14, h15, h16]
    exact (Cert.Bridge.G_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
